-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S16x64 : Shape := ⟨2, ![16, 64]⟩
abbrev S64 : Shape := ⟨1, ![64]⟩
abbrev S129024x256 : Shape := ⟨2, ![129024, 256]⟩
abbrev S256 : Shape := ⟨1, ![256]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S129024x256 : S_.BroadcastsInDim S129024x256 (![] : Fin 0 → Fin S129024x256.rank)
  reducesTo_S129024x256_S_d0_1 : S129024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S129024x256 1) : IVec S_ 1 :=
  let main_c_5 : IVec S_ 1 := constantI S_ 1 1#1
  let main_v17 : IVec S_ 1 := (fun x v => Host.reduce IntOp.andi x v reducesTo_S129024x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S1024x512 .f32) (main_arg1 : FVec F S16x64 .f32) (main_arg2 : FVec F S64 .f32) (main_arg3 : FVec F S129024x256 .f32) (main_arg4 : FVec F S256 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S129024x256 .f32 := Host.absf main_arg3
  let main_cst_4 : FVec F S_ .f32 := constant S_ .f32 0x7F800000#32
  let main_v15 : FVec F S129024x256 .f32 := broadcastInDim S129024x256 ![] bcast_S_S129024x256 main_cst_4
  let main_v16 : IVec S129024x256 1 := cmpf .olt main_v14 main_v15
  fn_part1 (F := F) main_arg4 main_v13 main_v16
-- ==== Kernel.lean ====
abbrev S1024x512 : Shape := ⟨2, ![1024, 512]⟩
abbrev S16x64 : Shape := ⟨2, ![16, 64]⟩
abbrev S64 : Shape := ⟨1, ![64]⟩
abbrev S129024x256 : Shape := ⟨2, ![129024, 256]⟩
abbrev S256 : Shape := ⟨1, ![256]⟩
abbrev S2016 : Shape := ⟨1, ![2016]⟩
abbrev S1024x64x8 : Shape := ⟨3, ![1024, 64, 8]⟩
abbrev S_ : Shape := ⟨0, ![]⟩
abbrev S2016x1 : Shape := ⟨2, ![2016, 1]⟩
abbrev S1024x2016x8 : Shape := ⟨3, ![1024, 2016, 8]⟩
abbrev S1024x2016x16 : Shape := ⟨3, ![1024, 2016, 16]⟩
abbrev S1x64 : Shape := ⟨2, ![1, 64]⟩
abbrev S1x256 : Shape := ⟨2, ![1, 256]⟩
abbrev S1024x256 : Shape := ⟨2, ![1024, 256]⟩
abbrev S256x112x16 : Shape := ⟨3, ![256, 112, 16]⟩
abbrev S7168x256 : Shape := ⟨2, ![7168, 256]⟩
abbrev S256x256 : Shape := ⟨2, ![256, 256]⟩
abbrev S28672x16 : Shape := ⟨2, ![28672, 16]⟩
abbrev S28672x64 : Shape := ⟨2, ![28672, 64]⟩
abbrev S256x7168 : Shape := ⟨2, ![256, 7168]⟩

abbrev nBuf : Space → Nat
  | .hbm => 33
  | .vmem => 10
  | .smem => 0
  | _ => 0

abbrev bufTy : (tb : Table) → Fin (tcTables nBuf tb) → BufTy
  | .hbm, ⟨0, _⟩ => ⟨S1024x512, .f32⟩
  | .hbm, ⟨1, _⟩ => ⟨S16x64, .f32⟩
  | .hbm, ⟨2, _⟩ => ⟨S64, .f32⟩
  | .hbm, ⟨3, _⟩ => ⟨S129024x256, .f32⟩
  | .hbm, ⟨4, _⟩ => ⟨S256, .f32⟩
  | .hbm, ⟨5, _⟩ => ⟨S2016, .i32⟩
  | .hbm, ⟨6, _⟩ => ⟨S2016, .i32⟩
  | .hbm, ⟨7, _⟩ => ⟨S1024x512, .bf16⟩
  | .hbm, ⟨8, _⟩ => ⟨S1024x64x8, .bf16⟩
  | .hbm, ⟨9, _⟩ => ⟨S_, .i32⟩
  | .hbm, ⟨10, _⟩ => ⟨S2016, .i32⟩
  | .hbm, ⟨11, _⟩ => ⟨S2016, .i1⟩
  | .hbm, ⟨12, _⟩ => ⟨S_, .i32⟩
  | .hbm, ⟨13, _⟩ => ⟨S2016, .i32⟩
  | .hbm, ⟨14, _⟩ => ⟨S2016, .i32⟩
  | .hbm, ⟨15, _⟩ => ⟨S2016, .i32⟩
  | .hbm, ⟨16, _⟩ => ⟨S2016x1, .i32⟩
  | .hbm, ⟨17, _⟩ => ⟨S1024x2016x8, .bf16⟩
  | .hbm, ⟨18, _⟩ => ⟨S_, .i32⟩
  | .hbm, ⟨19, _⟩ => ⟨S2016, .i32⟩
  | .hbm, ⟨20, _⟩ => ⟨S2016, .i1⟩
  | .hbm, ⟨21, _⟩ => ⟨S_, .i32⟩
  | .hbm, ⟨22, _⟩ => ⟨S2016, .i32⟩
  | .hbm, ⟨23, _⟩ => ⟨S2016, .i32⟩
  | .hbm, ⟨24, _⟩ => ⟨S2016, .i32⟩
  | .hbm, ⟨25, _⟩ => ⟨S2016x1, .i32⟩
  | .hbm, ⟨26, _⟩ => ⟨S1024x2016x8, .bf16⟩
  | .hbm, ⟨27, _⟩ => ⟨S1024x2016x16, .bf16⟩
  | .hbm, ⟨28, _⟩ => ⟨S16x64, .bf16⟩
  | .hbm, ⟨29, _⟩ => ⟨S129024x256, .bf16⟩
  | .hbm, ⟨30, _⟩ => ⟨S1x64, .f32⟩
  | .hbm, ⟨31, _⟩ => ⟨S1x256, .f32⟩
  | .hbm, ⟨32, _⟩ => ⟨S1024x256, .f32⟩
  | .local _ .vmem, ⟨0, _⟩ => ⟨S256x112x16, .bf16⟩
  | .local _ .vmem, ⟨1, _⟩ => ⟨S256x112x16, .bf16⟩
  | .local _ .vmem, ⟨2, _⟩ => ⟨S16x64, .bf16⟩
  | .local _ .vmem, ⟨3, _⟩ => ⟨S1x64, .f32⟩
  | .local _ .vmem, ⟨4, _⟩ => ⟨S7168x256, .bf16⟩
  | .local _ .vmem, ⟨5, _⟩ => ⟨S7168x256, .bf16⟩
  | .local _ .vmem, ⟨6, _⟩ => ⟨S1x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_c_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_c_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 18], ![false, false]⟩

def k0_cond2 (i : grid0.Coords) : BitVec 1 :=
  let arg1 : BitVec 32 := BitVec.ofNat 32 (i 1).val
  let c17_i32 : BitVec 32 := 17#32
  let v25 : BitVec 1 := Scalar.cmpi .eq arg1 c17_i32
  let v26 : BitVec 32 := Scalar.extui v25
  let c0_i32_15 : BitVec 32 := 0#32
  let v27 : BitVec 1 := Scalar.cmpi .ne v26 c0_i32_15
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x112x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S7168x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S1024x512_S1024x64x8 : S1024x512.ShapeCasts S1024x64x8
  bcast_S_S2016 : S_.BroadcastsInDim S2016 (![] : Fin 0 → Fin S2016.rank)
  bcast_S2016_S2016x1_0 : S2016.BroadcastsInDim S2016x1 (![0] : Fin 1 → Fin S2016x1.rank)
  concatenates_S1024x2016x8_S1024x2016x8_S1024x2016x16_d2 : Shape.Concatenates [S1024x2016x8, S1024x2016x8] S1024x2016x16 2
  shapeCasts_S64_S1x64 : S64.ShapeCasts S1x64
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x112x16_S256x112x16_0_0_0 : ∀ a, (![0, 0, 0] : Fin 3 → Nat) a + S256x112x16.size a ≤ S256x112x16.size a
  h_S256x112x16 : 0 < S256x112x16.numel
  shapeCasts_S256x112x16_S256x112x16 : S256x112x16.ShapeCasts S256x112x16
  shapeCasts_S256x112x16_S28672x16 : S256x112x16.ShapeCasts S28672x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S28672x64 : S1x64.Broadcasts S28672x64
  shapeCasts_S28672x64_S256x7168 : S28672x64.ShapeCasts S256x7168
  inb_S7168x256_S7168x256_0_0 : ∀ a, (![0, 0] : Fin 2 → Nat) a + S7168x256.size a ≤ S7168x256.size a
  h_S7168x256 : 0 < S7168x256.numel
  shapeCasts_S7168x256_S7168x256 : S7168x256.ShapeCasts S7168x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  gather_S1024x64x8_S2016x1_S1024x2016x8_02_1_n_n_1_1_102418_wf : GatherDims.WF S1024x64x8 S2016x1 S1024x2016x8 [0, 2] [1] [] [1] [] 1 ![1024, 1, 8]
  dot_S28672x16_S16x64_S28672x64_1_0_0_1_n_n_wf : DotDims.WF S28672x16 S16x64 S28672x64 [1] [0] [0] [1] [] []
  dot_S256x7168_S7168x256_S256x256_1_0_0_1_n_n_wf : DotDims.WF S256x7168 S7168x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x112x16.size a ≤ S1024x2016x16.size a
  hwx0_0 : ∀ i : grid0.Coords, EltTy.bits .bf16 = 32 ∨ (Rect.block (s := S1024x2016x16) S256x112x16.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .bf16 = 32 ∨ (Rect.block (s := S16x64) S16x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S7168x256.size a ≤ S129024x256.size a
  hwx0_3 : ∀ i : grid0.Coords, EltTy.bits .bf16 = 32 ∨ (Rect.block (s := S129024x256) S7168x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S1024x256.size a
  hwx0_5 : ∀ i : grid0.Coords, EltTy.bits .f32 = 32 ∨ (Rect.block (s := S1024x256) S256x256.size (cc0_transform_5 i) (hinb0_5 i)).WholeWords (EltTy.packing .f32)

variable [Facts₀]

def gather_S1024x64x8_S2016x1_S1024x2016x8_02_1_n_n_1_1_102418 : GatherDims S1024x64x8 S2016x1 S1024x2016x8 where
  offsetDims := [0, 2]
  collapsedSliceDims := [1]
  operandBatchingDims := []
  startIndicesBatchingDims := []
  startIndexMap := [1]
  indexVectorDim := 1
  sliceSizes := ![1024, 1, 8]
  wf := gather_S1024x64x8_S2016x1_S1024x2016x8_02_1_n_n_1_1_102418_wf
def dot_S28672x16_S16x64_S28672x64_1_0_0_1_n_n : DotDims S28672x16 S16x64 S28672x64 where
  lhsContracting := [1]
  rhsContracting := [0]
  lhsNonContracting := [0]
  rhsNonContracting := [1]
  lhsBatch := []
  rhsBatch := []
  wf := dot_S28672x16_S16x64_S28672x64_1_0_0_1_n_n_wf
def dot_S256x7168_S7168x256_S256x256_1_0_0_1_n_n : DotDims S256x7168 S7168x256 S256x256 where
  lhsContracting := [1]
  rhsContracting := [0]
  lhsNonContracting := [0]
  rhsNonContracting := [1]
  lhsBatch := []
  rhsBatch := []
  wf := dot_S256x7168_S7168x256_S256x256_1_0_0_1_n_n_wf

abbrev win0_0 : Pipeline.Window sig grid0 :=
  Pipeline.Window.ofSpec (Memref.whole main_v16) S256x112x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S7168x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1024x512 : Shape := ⟨2, ![1024, 512]⟩
abbrev S16x64 : Shape := ⟨2, ![16, 64]⟩
abbrev S64 : Shape := ⟨1, ![64]⟩
abbrev S129024x256 : Shape := ⟨2, ![129024, 256]⟩
abbrev S256 : Shape := ⟨1, ![256]⟩
abbrev S2016 : Shape := ⟨1, ![2016]⟩
abbrev S1024x64x8 : Shape := ⟨3, ![1024, 64, 8]⟩
abbrev S_ : Shape := ⟨0, ![]⟩
abbrev S2016x1 : Shape := ⟨2, ![2016, 1]⟩
abbrev S1024x2016x8 : Shape := ⟨3, ![1024, 2016, 8]⟩
abbrev S1024x2016x16 : Shape := ⟨3, ![1024, 2016, 16]⟩
abbrev S1024x2016x64 : Shape := ⟨3, ![1024, 2016, 64]⟩
abbrev S1x1x64 : Shape := ⟨3, ![1, 1, 64]⟩
abbrev S1024x129024 : Shape := ⟨2, ![1024, 129024]⟩
abbrev S1024x256 : Shape := ⟨2, ![1024, 256]⟩
abbrev S1x256 : Shape := ⟨2, ![1, 256]⟩

abbrev nBuf : Space → Nat
  | .hbm => 42
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S16x64, .f32⟩
  | .hbm, ⟨2, _⟩ => ⟨S64, .f32⟩
  | .hbm, ⟨3, _⟩ => ⟨S129024x256, .f32⟩
  | .hbm, ⟨4, _⟩ => ⟨S256, .f32⟩
  | .hbm, ⟨5, _⟩ => ⟨S2016, .i32⟩
  | .hbm, ⟨6, _⟩ => ⟨S2016, .i32⟩
  | .hbm, ⟨7, _⟩ => ⟨S1024x64x8, .f32⟩
  | .hbm, ⟨8, _⟩ => ⟨S_, .i32⟩
  | .hbm, ⟨9, _⟩ => ⟨S2016, .i32⟩
  | .hbm, ⟨10, _⟩ => ⟨S2016, .i1⟩
  | .hbm, ⟨11, _⟩ => ⟨S_, .i32⟩
  | .hbm, ⟨12, _⟩ => ⟨S2016, .i32⟩
  | .hbm, ⟨13, _⟩ => ⟨S2016, .i32⟩
  | .hbm, ⟨14, _⟩ => ⟨S2016, .i32⟩
  | .hbm, ⟨15, _⟩ => ⟨S2016x1, .i32⟩
  | .hbm, ⟨16, _⟩ => ⟨S1024x2016x8, .f32⟩
  | .hbm, ⟨17, _⟩ => ⟨S_, .i32⟩
  | .hbm, ⟨18, _⟩ => ⟨S2016, .i32⟩
  | .hbm, ⟨19, _⟩ => ⟨S2016, .i1⟩
  | .hbm, ⟨20, _⟩ => ⟨S_, .i32⟩
  | .hbm, ⟨21, _⟩ => ⟨S2016, .i32⟩
  | .hbm, ⟨22, _⟩ => ⟨S2016, .i32⟩
  | .hbm, ⟨23, _⟩ => ⟨S2016, .i32⟩
  | .hbm, ⟨24, _⟩ => ⟨S2016x1, .i32⟩
  | .hbm, ⟨25, _⟩ => ⟨S1024x2016x8, .f32⟩
  | .hbm, ⟨26, _⟩ => ⟨S1024x2016x16, .f32⟩
  | .hbm, ⟨27, _⟩ => ⟨S1024x2016x64, .f32⟩
  | .hbm, ⟨28, _⟩ => ⟨S1x1x64, .f32⟩
  | .hbm, ⟨29, _⟩ => ⟨S1024x2016x64, .f32⟩
  | .hbm, ⟨30, _⟩ => ⟨S1024x2016x64, .f32⟩
  | .hbm, ⟨31, _⟩ => ⟨S_, .f32⟩
  | .hbm, ⟨32, _⟩ => ⟨S1024x2016x64, .f32⟩
  | .hbm, ⟨33, _⟩ => ⟨S1024x2016x64, .f32⟩
  | .hbm, ⟨34, _⟩ => ⟨S1024x129024, .f32⟩
  | .hbm, ⟨35, _⟩ => ⟨S1024x256, .f32⟩
  | .hbm, ⟨36, _⟩ => ⟨S1x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_c_1 : Ref sig .tc := ⟨.hbm, 8, rfl⟩
abbrev main_v1 : Ref sig .tc := ⟨.hbm, 9, rfl⟩
abbrev main_v2 : Ref sig .tc := ⟨.hbm, 10, rfl⟩
abbrev main_c_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call1_cst : Ref sig .tc := ⟨.hbm, 39, rfl⟩
abbrev main_call1_v0 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  shapeCasts_S1024x512_S1024x64x8 : S1024x512.ShapeCasts S1024x64x8
  bcast_S_S2016 : S_.BroadcastsInDim S2016 (![] : Fin 0 → Fin S2016.rank)
  bcast_S2016_S2016x1_0 : S2016.BroadcastsInDim S2016x1 (![0] : Fin 1 → Fin S2016x1.rank)
  concatenates_S1024x2016x8_S1024x2016x8_S1024x2016x16_d2 : Shape.Concatenates [S1024x2016x8, S1024x2016x8] S1024x2016x16 2
  bcast_S64_S1x1x64_2 : S64.BroadcastsInDim S1x1x64 (![2] : Fin 1 → Fin S1x1x64.rank)
  bcast_S1x1x64_S1024x2016x64_0_1_2 : S1x1x64.BroadcastsInDim S1024x2016x64 (![0, 1, 2] : Fin 3 → Fin S1024x2016x64.rank)
  bcast_S_S1024x2016x64 : S_.BroadcastsInDim S1024x2016x64 (![] : Fin 0 → Fin S1024x2016x64.rank)
  shapeCasts_S1024x2016x64_S1024x129024 : S1024x2016x64.ShapeCasts S1024x129024
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  gather_S1024x64x8_S2016x1_S1024x2016x8_02_1_n_n_1_1_102418_wf : GatherDims.WF S1024x64x8 S2016x1 S1024x2016x8 [0, 2] [1] [] [1] [] 1 ![1024, 1, 8]
  dot_S1024x2016x16_S16x64_S1024x2016x64_2_0_01_1_n_n_wf : DotDims.WF S1024x2016x16 S16x64 S1024x2016x64 [2] [0] [0, 1] [1] [] []
  dot_S1024x129024_S129024x256_S1024x256_1_0_0_1_n_n_wf : DotDims.WF S1024x129024 S129024x256 S1024x256 [1] [0] [0] [1] [] []

variable [Facts₀]

def gather_S1024x64x8_S2016x1_S1024x2016x8_02_1_n_n_1_1_102418 : GatherDims S1024x64x8 S2016x1 S1024x2016x8 where
  offsetDims := [0, 2]
  collapsedSliceDims := [1]
  operandBatchingDims := []
  startIndicesBatchingDims := []
  startIndexMap := [1]
  indexVectorDim := 1
  sliceSizes := ![1024, 1, 8]
  wf := gather_S1024x64x8_S2016x1_S1024x2016x8_02_1_n_n_1_1_102418_wf
def dot_S1024x2016x16_S16x64_S1024x2016x64_2_0_01_1_n_n : DotDims S1024x2016x16 S16x64 S1024x2016x64 where
  lhsContracting := [2]
  rhsContracting := [0]
  lhsNonContracting := [0, 1]
  rhsNonContracting := [1]
  lhsBatch := []
  rhsBatch := []
  wf := dot_S1024x2016x16_S16x64_S1024x2016x64_2_0_01_1_n_n_wf
def dot_S1024x129024_S129024x256_S1024x256_1_0_0_1_n_n : DotDims S1024x129024 S129024x256 S1024x256 where
  lhsContracting := [1]
  rhsContracting := [0]
  lhsNonContracting := [0]
  rhsNonContracting := [1]
  lhsBatch := []
  rhsBatch := []
  wf := dot_S1024x129024_S129024x256_S1024x256_1_0_0_1_n_n_wf

class Facts : Prop extends Facts₀ where

variable [Facts]
-- ==== Proof.Pieces.lean ====
/-
  What one grid point's body leaves behind, case by case, as values.

  The body keeps a running total in a scratch block [256, 256] and touches the output block only at the last
  relation tile. At the first tile of a batch tile (case A) it stores the zero block into the scratch and then the
  accumulation step over that zero block; at a middle tile (case B) the accumulation step over what the tile before
  left; at the last tile (case C) the same step, and then the epilogue (bias, clamp at zero) of the fresh total into
  the output block. Each store covers its whole block, so what a buffer holds afterwards is the last stored value.
-/
import proofs.«118430_j27127013441944_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem origin2 : (![0, 0] : Fin 2 → Nat) = fun _ => 0 := funext fun a => by fin_cases a <;> rfl

theorem origin3 : (![0, 0, 0] : Fin 3 → Nat) = fun _ => 0 := funext fun a => by fin_cases a <;> rfl

/-- The first tile of a batch tile stores the zero block and then the accumulation step over it: the scratch
    ends at the step applied to the zero block. -/
theorem scratch_A (c : Dev nD) (i : grid0.Coords) (a2 : Memref sig .tc .vmem S256x112x16 .bf16) (h2 : a2.IsWhole) (a3 : Memref sig .tc .vmem S16x64 .bf16) (h3 : a3.IsWhole) (a4 : Memref sig .tc .vmem S1x64 .f32) (h4 : a4.IsWhole) (a5 : Memref sig .tc .vmem S7168x256 .bf16) (h5 : a5.IsWhole) (a6 : Memref sig .tc .vmem S1x256 .f32) (h6 : a6.IsWhole) (a7 : Memref sig .tc .vmem S256x256 .f32) (h7 : a7.IsWhole) (a8 : Memref sig .tc .vmem S256x256 .f32) (h8 : a8.IsWhole) (hc0 : cond0_0 i) (hc1 : ¬cond0_1 i)
    (x0 : Vec F S256x112x16 .bf16) (x1 : Vec F S16x64 .bf16) (x2 : Vec F S1x64 .f32) (x3 : Vec F S7168x256 .bf16) (x4 : Vec F S1x256 .f32) :
    sout0_A_0 c i a2 h2 a3 h3 a4 h4 a5 h5 a6 h6 a7 h7 a8 h8 hc0 hc1 x0 x1 x2 x3 x4 = k0_pay2 x0 x1 x2 k0_pay1 x3 := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S256x256) origin2]
  simp only [View.readAt_eq_ld, h2.read_unread, h3.read_unread, h4.read_unread, h5.read_unread, h6.read_unread,
    h7.read_unread, h8.read_unread,
    View.ld_unit_zero (S := S256x112x16) origin3, View.ld_unit_zero (S := S16x64) origin2,
    View.ld_unit_zero (S := S1x64) origin2, View.ld_unit_zero (S := S7168x256) origin2,
    View.ld_unit_zero (S := S1x256) origin2, View.ld_unit_zero (S := S256x256) origin2,
    View.readCov_unit_zero (S := S256x256) _ origin2]

/-- A middle tile leaves in the scratch the accumulation step over what the tile before left there. -/
theorem scratch_B (c : Dev nD) (i : grid0.Coords) (a2 : Memref sig .tc .vmem S256x112x16 .bf16) (h2 : a2.IsWhole) (a3 : Memref sig .tc .vmem S16x64 .bf16) (h3 : a3.IsWhole) (a4 : Memref sig .tc .vmem S1x64 .f32) (h4 : a4.IsWhole) (a5 : Memref sig .tc .vmem S7168x256 .bf16) (h5 : a5.IsWhole) (a6 : Memref sig .tc .vmem S1x256 .f32) (h6 : a6.IsWhole) (a7 : Memref sig .tc .vmem S256x256 .f32) (h7 : a7.IsWhole) (a8 : Memref sig .tc .vmem S256x256 .f32) (h8 : a8.IsWhole) (hc0 : ¬cond0_0 i) (hc1 : ¬cond0_1 i)
    (x0 : Vec F S256x112x16 .bf16) (x1 : Vec F S16x64 .bf16) (x2 : Vec F S1x64 .f32) (x3 : Vec F S7168x256 .bf16) (x4 : Vec F S1x256 .f32) (xs0 : Vec F S256x256 .f32) :
    sout0_B_0 c i a2 h2 a3 h3 a4 h4 a5 h5 a6 h6 a7 h7 a8 h8 hc0 hc1 x0 x1 x2 x3 x4 xs0 = k0_pay2 x0 x1 x2 xs0 x3 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero origin2]
  simp only [View.readAt_eq_ld, h2.read_unread, h3.read_unread, h4.read_unread, h5.read_unread, h6.read_unread,
    h7.read_unread, h8.read_unread,
    View.ld_unit_zero (S := S256x112x16) origin3, View.ld_unit_zero (S := S16x64) origin2,
    View.ld_unit_zero (S := S1x64) origin2, View.ld_unit_zero (S := S7168x256) origin2,
    View.ld_unit_zero (S := S1x256) origin2, View.ld_unit_zero (S := S256x256) origin2,
    View.readCov_unit_zero (S := S256x256) _ origin2]

/-- The last tile leaves the same step in the scratch … -/
theorem scratch_C (c : Dev nD) (i : grid0.Coords) (a2 : Memref sig .tc .vmem S256x112x16 .bf16) (h2 : a2.IsWhole) (a3 : Memref sig .tc .vmem S16x64 .bf16) (h3 : a3.IsWhole) (a4 : Memref sig .tc .vmem S1x64 .f32) (h4 : a4.IsWhole) (a5 : Memref sig .tc .vmem S7168x256 .bf16) (h5 : a5.IsWhole) (a6 : Memref sig .tc .vmem S1x256 .f32) (h6 : a6.IsWhole) (a7 : Memref sig .tc .vmem S256x256 .f32) (h7 : a7.IsWhole) (a8 : Memref sig .tc .vmem S256x256 .f32) (h8 : a8.IsWhole) (hc0 : ¬cond0_0 i) (hc1 : cond0_1 i)
    (x0 : Vec F S256x112x16 .bf16) (x1 : Vec F S16x64 .bf16) (x2 : Vec F S1x64 .f32) (x3 : Vec F S7168x256 .bf16) (x4 : Vec F S1x256 .f32) (xs0 : Vec F S256x256 .f32) :
    sout0_C_0 c i a2 h2 a3 h3 a4 h4 a5 h5 a6 h6 a7 h7 a8 h8 hc0 hc1 x0 x1 x2 x3 x4 xs0 = k0_pay2 x0 x1 x2 xs0 x3 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero origin2]
  simp only [View.readAt_eq_ld, h2.read_unread, h3.read_unread, h4.read_unread, h5.read_unread, h6.read_unread,
    h7.read_unread, h8.read_unread,
    View.ld_unit_zero (S := S256x112x16) origin3, View.ld_unit_zero (S := S16x64) origin2,
    View.ld_unit_zero (S := S1x64) origin2, View.ld_unit_zero (S := S7168x256) origin2,
    View.ld_unit_zero (S := S1x256) origin2, View.ld_unit_zero (S := S256x256) origin2,
    View.readCov_unit_zero (S := S256x256) _ origin2]

/-- … and stores the epilogue of that fresh total into the output block. -/
theorem out_C (c : Dev nD) (i : grid0.Coords) (a2 : Memref sig .tc .vmem S256x112x16 .bf16) (h2 : a2.IsWhole) (a3 : Memref sig .tc .vmem S16x64 .bf16) (h3 : a3.IsWhole) (a4 : Memref sig .tc .vmem S1x64 .f32) (h4 : a4.IsWhole) (a5 : Memref sig .tc .vmem S7168x256 .bf16) (h5 : a5.IsWhole) (a6 : Memref sig .tc .vmem S1x256 .f32) (h6 : a6.IsWhole) (a7 : Memref sig .tc .vmem S256x256 .f32) (h7 : a7.IsWhole) (a8 : Memref sig .tc .vmem S256x256 .f32) (h8 : a8.IsWhole) (hc0 : ¬cond0_0 i) (hc1 : cond0_1 i)
    (x0 : Vec F S256x112x16 .bf16) (x1 : Vec F S16x64 .bf16) (x2 : Vec F S1x64 .f32) (x3 : Vec F S7168x256 .bf16) (x4 : Vec F S1x256 .f32) (xs0 : Vec F S256x256 .f32) :
    out0_C_5 c i a2 h2 a3 h3 a4 h4 a5 h5 a6 h6 a7 h7 a8 h8 hc0 hc1 x0 x1 x2 x3 x4 xs0 = k0_pay3 (k0_pay2 x0 x1 x2 xs0 x3) x4 := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero origin2]
  simp only [View.readAt_eq_ld, h2.read_unread, h3.read_unread, h4.read_unread, h5.read_unread, h6.read_unread,
    h7.read_unread, h8.read_unread,
    View.ld_unit_zero (S := S256x112x16) origin3, View.ld_unit_zero (S := S16x64) origin2,
    View.ld_unit_zero (S := S1x64) origin2, View.ld_unit_zero (S := S7168x256) origin2,
    View.ld_unit_zero (S := S1x256) origin2, View.ld_unit_zero (S := S256x256) origin2,
    View.readCov_unit_zero (S := S256x256) _ origin2]

end Cert.KernelIdeal.Pieces

end
-- ==== Proof.Blocks.lean ====
/-
  Which entries of the arrays a grid point reads.

  The grid is 4 batch tiles by 18 relation tiles; point `t` is relation tile `t % 18` of batch tile `t / 18`.
  Its pair block is rows `256 (t / 18) …`, pairs `112 (t % 18) …` of the pair array, all 16 features; its
  second-layer block is rows `7168 (t % 18) …` of the second weight matrix; the first layer's weights and both
  biases are read whole at every point. A block's entry at a coordinate inside the block is the array's entry at
  block index × block size + that coordinate.
-/
import proofs.«118430_j27127013441944_1_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The five arrays the region reads, as it finds them, each at its literal type. -/
abbrev pairArr (c : Dev nD) : Vec F S1024x2016x16 .bf16 := V m c main_v16
abbrev w1Arr (c : Dev nD) : Vec F S16x64 .bf16 := V m c main_v17
abbrev b1Arr (c : Dev nD) : Vec F S1x64 .f32 := V m c main_v19
abbrev w2Arr (c : Dev nD) : Vec F S129024x256 .bf16 := V m c main_v18
abbrev b2Arr (c : Dev nD) : Vec F S1x256 .f32 := V m c main_v20

/-- A point's five input blocks, each at its literal type. -/
abbrev pairBlk (c : Dev nD) (t : Fin cfg0.N) : Vec F S256x112x16 .bf16 := iblk m c 0 t
abbrev w1Blk (c : Dev nD) (t : Fin cfg0.N) : Vec F S16x64 .bf16 := iblk m c 1 t
abbrev b1Blk (c : Dev nD) (t : Fin cfg0.N) : Vec F S1x64 .f32 := iblk m c 2 t
abbrev w2Blk (c : Dev nD) (t : Fin cfg0.N) : Vec F S7168x256 .bf16 := iblk m c 3 t
abbrev b2Blk (c : Dev nD) (t : Fin cfg0.N) : Vec F S1x256 .f32 := iblk m c 4 t

/-- The printed index maps over the grid: batch tile `t / 18`, relation tile `t % 18`. -/
theorem index_facts : ∀ t : Fin cfg0.N,
    win0_0.index t (0 : Fin 3) = t.val / 18 ∧ win0_0.index t (1 : Fin 3) = t.val % 18 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val % 18 ∧ win0_3.index t (1 : Fin 2) = 0
    ∧ win0_4.index t (0 : Fin 2) = 0 ∧ win0_4.index t (1 : Fin 2) = 0
    ∧ win0_5.index t (0 : Fin 2) = t.val / 18 ∧ win0_5.index t (1 : Fin 2) = 0 :=
  (by decide +kernel : ∀ t : Fin grid0.N, _)

theorem point_lt (t : Fin cfg0.N) : t.val < 72 := lt_of_lt_of_eq t.isLt (show cfg0.N = 72 from N_0)

/-- The pair block at `(p, r, d)` is the pair array at row `256 (t / 18) + p`, pair `112 (t % 18) + r`. -/
theorem pairBlk_apply (c : Dev nD) (t : Fin cfg0.N) (p : Fin 256) (r : Fin 112) (d : Fin 16)
    (b : Fin 1024) (r' : Fin 2016) (hb : b.val = t.val / 18 * 256 + p.val) (hr : r'.val = t.val % 18 * 112 + r.val) :
    pairBlk m c t (ix3 p r d) = pairArr m c (ix3 b r' d) := by
  obtain ⟨e0, e1, e2, -⟩ := index_facts t
  show V m c main_v16 (((cfg0.win 0).blk t).view.emb (ix3 p r d)) = V m c main_v16 (ix3 b r' d)
  refine congrArg _ (funext fun a => Fin.ext ?_)
  match a with
  | ⟨0, _⟩ => show win0_0.index t (0 : Fin 3) * 256 + 1 * p.val = b.val; omega
  | ⟨1, _⟩ => show win0_0.index t (1 : Fin 3) * 112 + 1 * r.val = r'.val; omega
  | ⟨2, _⟩ => show win0_0.index t (2 : Fin 3) * 16 + 1 * d.val = d.val; omega

/-- The first layer's weights are read whole. -/
theorem w1Blk_apply (c : Dev nD) (t : Fin cfg0.N) (d : Fin 16) (h : Fin 64) :
    w1Blk m c t (ix2 d h) = w1Arr m c (ix2 d h) := by
  obtain ⟨-, -, -, e0, e1, -⟩ := index_facts t
  show V m c main_v17 (((cfg0.win 1).blk t).view.emb (ix2 d h)) = V m c main_v17 (ix2 d h)
  refine congrArg _ (funext fun a => Fin.ext ?_)
  match a with
  | ⟨0, _⟩ => show win0_1.index t (0 : Fin 2) * 16 + 1 * d.val = d.val; omega
  | ⟨1, _⟩ => show win0_1.index t (1 : Fin 2) * 64 + 1 * h.val = h.val; omega

/-- The first layer's bias row is read whole. -/
theorem b1Blk_apply (c : Dev nD) (t : Fin cfg0.N) (u : Fin 1) (h : Fin 64) :
    b1Blk m c t (ix2 u h) = b1Arr m c (ix2 u h) := by
  obtain ⟨-, -, -, -, -, e0, e1, -⟩ := index_facts t
  show V m c main_v19 (((cfg0.win 2).blk t).view.emb (ix2 u h)) = V m c main_v19 (ix2 u h)
  refine congrArg _ (funext fun a => Fin.ext ?_)
  match a with
  | ⟨0, _⟩ => show win0_2.index t (0 : Fin 2) * 1 + 1 * u.val = u.val; omega
  | ⟨1, _⟩ => show win0_2.index t (1 : Fin 2) * 64 + 1 * h.val = h.val; omega

/-- The second-layer block at `(j, q)` is the second weight matrix at row `7168 (t % 18) + j`. -/
theorem w2Blk_apply (c : Dev nD) (t : Fin cfg0.N) (j : Fin 7168) (q : Fin 256)
    (k : Fin 129024) (hk : k.val = t.val % 18 * 7168 + j.val) :
    w2Blk m c t (ix2 j q) = w2Arr m c (ix2 k q) := by
  obtain ⟨-, -, -, -, -, -, -, e0, e1, -⟩ := index_facts t
  show V m c main_v18 (((cfg0.win 3).blk t).view.emb (ix2 j q)) = V m c main_v18 (ix2 k q)
  refine congrArg _ (funext fun a => Fin.ext ?_)
  match a with
  | ⟨0, _⟩ => show win0_3.index t (0 : Fin 2) * 7168 + 1 * j.val = k.val; omega
  | ⟨1, _⟩ => show win0_3.index t (1 : Fin 2) * 256 + 1 * q.val = q.val; omega

/-- The second layer's bias row is read whole. -/
theorem b2Blk_apply (c : Dev nD) (t : Fin cfg0.N) (u : Fin 1) (q : Fin 256) :
    b2Blk m c t (ix2 u q) = b2Arr m c (ix2 u q) := by
  obtain ⟨-, -, -, -, -, -, -, -, -, e0, e1, -⟩ := index_facts t
  show V m c main_v20 (((cfg0.win 4).blk t).view.emb (ix2 u q)) = V m c main_v20 (ix2 u q)
  refine congrArg _ (funext fun a => Fin.ext ?_)
  match a with
  | ⟨0, _⟩ => show win0_4.index t (0 : Fin 2) * 1 + 1 * u.val = u.val; omega
  | ⟨1, _⟩ => show win0_4.index t (1 : Fin 2) * 256 + 1 * q.val = q.val; omega

end Cert.KernelIdeal.Blocks

end
-- ==== Proof.Payload.lean ====
import proofs.«118430_j27127013441944_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The kernel body's arithmetic read at an index

One tile of the fused kernel holds a block of pairs `x0 : [256, 112, 16]`, the first layer's weights
`x1 : [16, 64]` and bias `x2 : [1, 64]`, a block `x3 : [7168, 256]` of the second layer's weights, its
bias `x4 : [1, 256]`, and an accumulator `a : [256, 256]`. The hidden activations are
`h (112 p + r, u) = max (∑ d, x0 (p, r, d) * x1 (d, u) + x2 (0, u)) 0`; read as a `[256, 7168]` array, position
`j = 64 r + u` of row `p` is unit `u` of pair `r`. The step stores `a + h @ x3`; the epilogue stores
`max (a + x4) 0`. Each theorem below reads one of the three stored terms at an index, over the extended reals.
-/

noncomputable section

namespace Cert.KernelIdeal.Payload

open Idealize.ShloMosaic Idealize.ShloMosaic.ValueIdx
open Cert.KernelIdeal Cert.KernelIdeal.Gen
open scoped BigOperators

/-! ## The zero splat and the epilogue -/

/-- The term stored at the first tile is zero everywhere. -/
theorem pay1_apply (i : S256x256.Idx) : k0_pay1 (F := Ideal) i = 0 := by
  unfold k0_pay1
  rw [shapeCast_self]
  exact Ideal.ofBits_zero_f32

/-- The epilogue at `(p, q)`: the accumulator plus the one-row bias at column `q`, clamped at zero. -/
theorem pay3_apply (a : Vec Ideal S256x256 .f32) (x4 : Vec Ideal S1x256 .f32) (p q : Fin 256) :
    k0_pay3 (F := Ideal) a x4 (ix2 p q) = max (a (ix2 p q) + x4 (ix2 (0 : Fin 1) q)) 0 := by
  unfold k0_pay3
  rw [maximumf_apply, addf_apply, broadcast_apply, shapeCast_self, broadcastTo_1b_ab_apply]
  exact congrArg (max _) Ideal.ofBits_zero_f32

/-! ## The two products

Both are plain row-by-column products: the result's row indexes the left operand's rows, its column the right
operand's columns, and the one contracted axis is the left operand's columns and the right operand's rows. -/

/-- The left operand's row is the result's row. -/
theorem lhs_h_0 (i : S28672x64.Idx) (q : dot_S28672x16_S16x64_S28672x64_1_0_0_1_n_n.contr.Idx) :
    (dot_S28672x16_S16x64_S28672x64_1_0_0_1_n_n.lhsIdx i q 0).val = (i 0).val := by
  unfold DotDims.lhsIdx
  rw [dif_neg (show ¬(0 : Fin S28672x16.rank) ∈ dot_S28672x16_S16x64_S28672x64_1_0_0_1_n_n.lhsBatch by decide), dif_pos (show (0 : Fin S28672x16.rank) ∈ dot_S28672x16_S16x64_S28672x64_1_0_0_1_n_n.lhsNonContracting by decide)]
  rfl

/-- The left operand's column is the contraction position. -/
theorem lhs_h_1 (i : S28672x64.Idx) (q : dot_S28672x16_S16x64_S28672x64_1_0_0_1_n_n.contr.Idx) :
    (dot_S28672x16_S16x64_S28672x64_1_0_0_1_n_n.lhsIdx i q 1).val = (q ⟨0, by decide⟩).val :=
  dot_S28672x16_S16x64_S28672x64_1_0_0_1_n_n.lhsIdx_val_of_single rfl i q

/-- The right operand's row is the contraction position. -/
theorem rhs_h_0 (i : S28672x64.Idx) (q : dot_S28672x16_S16x64_S28672x64_1_0_0_1_n_n.contr.Idx) :
    (dot_S28672x16_S16x64_S28672x64_1_0_0_1_n_n.rhsIdx i q 0).val = (q ⟨0, by decide⟩).val :=
  dot_S28672x16_S16x64_S28672x64_1_0_0_1_n_n.rhsIdx_val_of_single rfl i q

/-- The right operand's column is the result's column. -/
theorem rhs_h_1 (i : S28672x64.Idx) (q : dot_S28672x16_S16x64_S28672x64_1_0_0_1_n_n.contr.Idx) :
    (dot_S28672x16_S16x64_S28672x64_1_0_0_1_n_n.rhsIdx i q 1).val = (i 1).val := by
  unfold DotDims.rhsIdx
  rw [dif_neg (show ¬(1 : Fin S16x64.rank) ∈ dot_S28672x16_S16x64_S28672x64_1_0_0_1_n_n.rhsBatch by decide), dif_pos (show (1 : Fin S16x64.rank) ∈ dot_S28672x16_S16x64_S28672x64_1_0_0_1_n_n.rhsNonContracting by decide)]
  rfl

/-- The first product into the zero splat at `(a, u)`: the sum over the sixteen input features. -/
theorem matmul_hidden_apply (y : FVec Ideal S28672x16 .bf16) (w : FVec Ideal S16x64 .bf16) (a : Fin 28672) (u : Fin 64) :
    matmul dot_S28672x16_S16x64_S28672x64_1_0_0_1_n_n none y w (constant (F := Ideal) S28672x64 .f32 0x00000000#32) (ix2 a u)
      = ∑ k : Fin 16, y (ix2 a k) * w (ix2 k u) := by
  simp only [matmul]
  rw [Ideal.matmul_constant_zero_apply, ← Equiv.sum_comp (ValueIdx.contrEquiv1 dot_S28672x16_S16x64_S28672x64_1_0_0_1_n_n 16 rfl rfl).symm]
  refine Finset.sum_congr rfl fun k _ => ?_
  have hk := ValueIdx.contrEquiv1_symm_val dot_S28672x16_S16x64_S28672x64_1_0_0_1_n_n 16 rfl rfl k
  have el : dot_S28672x16_S16x64_S28672x64_1_0_0_1_n_n.lhsIdx (ix2 a u) ((ValueIdx.contrEquiv1 dot_S28672x16_S16x64_S28672x64_1_0_0_1_n_n 16 rfl rfl).symm k) = ix2 a k := funext fun ax => Fin.ext (by
    match ax with
    | ⟨0, _⟩ => exact lhs_h_0 _ _
    | ⟨1, _⟩ => exact (lhs_h_1 _ _).trans hk)
  have er : dot_S28672x16_S16x64_S28672x64_1_0_0_1_n_n.rhsIdx (ix2 a u) ((ValueIdx.contrEquiv1 dot_S28672x16_S16x64_S28672x64_1_0_0_1_n_n 16 rfl rfl).symm k) = ix2 k u := funext fun ax => Fin.ext (by
    match ax with
    | ⟨0, _⟩ => exact (rhs_h_0 _ _).trans hk
    | ⟨1, _⟩ => exact rhs_h_1 _ _)
  rw [el, er]

/-- The left operand's row is the result's row. -/
theorem lhs_o_0 (i : S256x256.Idx) (q : dot_S256x7168_S7168x256_S256x256_1_0_0_1_n_n.contr.Idx) :
    (dot_S256x7168_S7168x256_S256x256_1_0_0_1_n_n.lhsIdx i q 0).val = (i 0).val := by
  unfold DotDims.lhsIdx
  rw [dif_neg (show ¬(0 : Fin S256x7168.rank) ∈ dot_S256x7168_S7168x256_S256x256_1_0_0_1_n_n.lhsBatch by decide), dif_pos (show (0 : Fin S256x7168.rank) ∈ dot_S256x7168_S7168x256_S256x256_1_0_0_1_n_n.lhsNonContracting by decide)]
  rfl

/-- The left operand's column is the contraction position. -/
theorem lhs_o_1 (i : S256x256.Idx) (q : dot_S256x7168_S7168x256_S256x256_1_0_0_1_n_n.contr.Idx) :
    (dot_S256x7168_S7168x256_S256x256_1_0_0_1_n_n.lhsIdx i q 1).val = (q ⟨0, by decide⟩).val :=
  dot_S256x7168_S7168x256_S256x256_1_0_0_1_n_n.lhsIdx_val_of_single rfl i q

/-- The right operand's row is the contraction position. -/
theorem rhs_o_0 (i : S256x256.Idx) (q : dot_S256x7168_S7168x256_S256x256_1_0_0_1_n_n.contr.Idx) :
    (dot_S256x7168_S7168x256_S256x256_1_0_0_1_n_n.rhsIdx i q 0).val = (q ⟨0, by decide⟩).val :=
  dot_S256x7168_S7168x256_S256x256_1_0_0_1_n_n.rhsIdx_val_of_single rfl i q

/-- The right operand's column is the result's column. -/
theorem rhs_o_1 (i : S256x256.Idx) (q : dot_S256x7168_S7168x256_S256x256_1_0_0_1_n_n.contr.Idx) :
    (dot_S256x7168_S7168x256_S256x256_1_0_0_1_n_n.rhsIdx i q 1).val = (i 1).val := by
  unfold DotDims.rhsIdx
  rw [dif_neg (show ¬(1 : Fin S7168x256.rank) ∈ dot_S256x7168_S7168x256_S256x256_1_0_0_1_n_n.rhsBatch by decide), dif_pos (show (1 : Fin S7168x256.rank) ∈ dot_S256x7168_S7168x256_S256x256_1_0_0_1_n_n.rhsNonContracting by decide)]
  rfl

/-- The second product into the zero splat at `(p, q)`: the sum over the 7168 hidden positions of a row. -/
theorem matmul_out_apply (y : FVec Ideal S256x7168 .bf16) (w : FVec Ideal S7168x256 .bf16) (a : Fin 256) (u : Fin 256) :
    matmul dot_S256x7168_S7168x256_S256x256_1_0_0_1_n_n none y w (constant (F := Ideal) S256x256 .f32 0x00000000#32) (ix2 a u)
      = ∑ k : Fin 7168, y (ix2 a k) * w (ix2 k u) := by
  simp only [matmul]
  rw [Ideal.matmul_constant_zero_apply, ← Equiv.sum_comp (ValueIdx.contrEquiv1 dot_S256x7168_S7168x256_S256x256_1_0_0_1_n_n 7168 rfl rfl).symm]
  refine Finset.sum_congr rfl fun k _ => ?_
  have hk := ValueIdx.contrEquiv1_symm_val dot_S256x7168_S7168x256_S256x256_1_0_0_1_n_n 7168 rfl rfl k
  have el : dot_S256x7168_S7168x256_S256x256_1_0_0_1_n_n.lhsIdx (ix2 a u) ((ValueIdx.contrEquiv1 dot_S256x7168_S7168x256_S256x256_1_0_0_1_n_n 7168 rfl rfl).symm k) = ix2 a k := funext fun ax => Fin.ext (by
    match ax with
    | ⟨0, _⟩ => exact lhs_o_0 _ _
    | ⟨1, _⟩ => exact (lhs_o_1 _ _).trans hk)
  have er : dot_S256x7168_S7168x256_S256x256_1_0_0_1_n_n.rhsIdx (ix2 a u) ((ValueIdx.contrEquiv1 dot_S256x7168_S7168x256_S256x256_1_0_0_1_n_n 7168 rfl rfl).symm k) = ix2 k u := funext fun ax => Fin.ext (by
    match ax with
    | ⟨0, _⟩ => exact (rhs_o_0 _ _).trans hk
    | ⟨1, _⟩ => exact rhs_o_1 _ _)
  rw [el, er]

/-! ## The two reshapes

Both keep the row-major position. Row `112 p + r` of the `[28672, 16]` view is pair `r` of batch row `p`; position
`j` of row `p` of the `[256, 7168]` view is entry `(112 p + j / 64, j % 64)` of the `[28672, 64]` array, since
`7168 = 112 * 64`. -/

/-- The pairs block flattened to rows of sixteen features. -/
theorem cast_pairs_apply {α : Type} (x : S256x112x16.Idx → α) (h : S256x112x16.ShapeCasts S28672x16)
    (p : Fin 256) (r : Fin 112) (d : Fin 16) :
    shapeCast S28672x16 x h (ix2 (⟨112 * p.val + r.val, by have := p.isLt; have := r.isLt; omega⟩ : Fin 28672) d)
      = x (ix3 p r d) :=
  shapeCast_apply x h _ _ (by
    rw [Shape.rowMajor_val_three, Shape.rowMajor_val_two]
    show (p.val * 112 + r.val) * 16 + d.val = (112 * p.val + r.val) * 16 + d.val
    rw [Nat.mul_comm p.val 112])

/-- The hidden activations regrouped by batch row. -/
theorem cast_hidden_apply {α : Type} (x : S28672x64.Idx → α) (h : S28672x64.ShapeCasts S256x7168)
    (p : Fin 256) (j : Fin 7168) :
    shapeCast S256x7168 x h (ix2 p j)
      = x (ix2 (⟨112 * p.val + j.val / 64, by have := p.isLt; have := j.isLt; omega⟩ : Fin 28672)
            (⟨j.val % 64, by omega⟩ : Fin 64)) :=
  shapeCast_apply x h _ _ (by
    rw [Shape.rowMajor_val_two, Shape.rowMajor_val_two]
    show (112 * p.val + j.val / 64) * 64 + j.val % 64 = p.val * 7168 + j.val
    omega)

/-! ## The hidden layer at an entry -/

/-- Unit `u` of pair `r` of batch row `p`: the pair's sixteen features against column `u` of the first weights, plus
the bias at `u`, clamped at zero. Rounding to the narrower format changes nothing over the extended reals. -/
theorem hidden_apply (x0 : FVec Ideal S256x112x16 .bf16) (x1 : FVec Ideal S16x64 .bf16) (x2 : FVec Ideal S1x64 .f32)
    (hc : S256x112x16.ShapeCasts S28672x16) (hb : S1x64.Broadcasts S28672x64) (ht : FTy.bits .bf16 < FTy.bits .f32)
    (p : Fin 256) (r : Fin 112) (u : Fin 64) :
    (truncf .bf16 (maximumf (addf
        (matmul dot_S28672x16_S16x64_S28672x64_1_0_0_1_n_n none (shapeCast S28672x16 x0 hc) x1 (constant (F := Ideal) S28672x64 .f32 0x00000000#32))
        (broadcastTo S28672x64 x2 hb))
        (broadcast S28672x64 (Scalar.ofBits (F := Ideal) .f32 0x00000000#32))) ht : FVec Ideal S28672x64 .bf16)
      (ix2 (⟨112 * p.val + r.val, by have := p.isLt; have := r.isLt; omega⟩ : Fin 28672) u)
      = max ((∑ d : Fin 16, x0 (ix3 p r d) * x1 (ix2 d u)) + x2 (ix2 (0 : Fin 1) u)) 0 := by
  rw [truncf_apply, maximumf_apply, addf_apply, broadcast_apply, matmul_hidden_apply, broadcastTo_1b_ab_apply]
  refine congrArg₂ max (congrArg (· + x2 (ix2 (0 : Fin 1) u)) (Finset.sum_congr rfl fun d _ => ?_)) Ideal.ofBits_zero_f32
  exact congrArg (· * x1 (ix2 d u)) (cast_pairs_apply x0 hc p r d)

/-! ## The accumulation step -/

/-- The stored term at `(p, q)`: the accumulator there plus, over the 7168 positions `j = 64 r + u` of row `p`, the
hidden activation of pair `r = j / 64` at unit `u = j % 64` times the second weights' entry `(j, q)`. -/
theorem pay2_apply (x0 : Vec Ideal S256x112x16 .bf16) (x1 : Vec Ideal S16x64 .bf16) (x2 : Vec Ideal S1x64 .f32)
    (a : Vec Ideal S256x256 .f32) (x3 : Vec Ideal S7168x256 .bf16) (p q : Fin 256) :
    k0_pay2 (F := Ideal) x0 x1 x2 a x3 (ix2 p q)
      = a (ix2 p q) + ∑ j : Fin 7168,
          max ((∑ d : Fin 16, x0 (ix3 p (⟨j.val / 64, by have := j.isLt; omega⟩ : Fin 112) d) * x1 (ix2 d (⟨j.val % 64, by omega⟩ : Fin 64)))
                + x2 (ix2 (0 : Fin 1) (⟨j.val % 64, by omega⟩ : Fin 64))) 0
            * x3 (ix2 j q) := by
  unfold k0_pay2
  simp only [shapeCast_self]
  rw [addf_apply, matmul_out_apply]
  refine congrArg (a (ix2 p q) + ·) (Finset.sum_congr rfl fun j _ => ?_)
  refine congrArg (· * x3 (ix2 j q)) ?_
  refine (cast_hidden_apply _ _ p j).trans ?_
  exact hidden_apply x0 x1 x2 _ _ _ p (⟨j.val / 64, by have := j.isLt; omega⟩ : Fin 112) (⟨j.val % 64, by omega⟩ : Fin 64)

end Cert.KernelIdeal.Payload

end
-- ==== Proof.Spec.lean ====
/-
  The relation encoder as plain mathematics over the extended reals, free of any program.

  For a batch row `b`, every unordered pair `r` of entities (2016 of them) carries a 16-vector `P b r`. A first
  affine layer followed by a clamp at zero gives 64 hidden units per pair,
      hid b r h = max (Σ_d P b r d · Wr d h + br h) 0,
  the 2016 × 64 hidden units of a row are laid side by side (unit `h` of pair `r` at position `64 r + h`), and a
  second affine layer followed by the same clamp gives the result,
      result b e = max (Σ_k hid b (k / 64) (k % 64) · Wf k e + bf e) 0,          k < 129024 = 2016 · 64.

  The sum over `k` may be taken in 18 consecutive runs of 7168 = 112 · 64 positions (112 pairs each), each run
  added onto an accumulator that starts at zero: addition on the extended reals is commutative and associative
  with neutral element zero (no cancellation, no distributivity is used), so the nested accumulation is the one
  sum, whatever the entries are.
-/
import Mathlib.Data.EReal.Basic
import Mathlib.Algebra.BigOperators.Fin
import Mathlib.Algebra.BigOperators.Group.Finset.Basic

noncomputable section

namespace Cert.PairEnc

open Finset

/-- A sum over `n · m` consecutive naturals is the sum of `n` consecutive runs of length `m`. -/
theorem sum_range_mul_runs {M : Type*} [AddCommMonoid M] (g : ℕ → M) (m : ℕ) :
    ∀ n : ℕ, ∑ k ∈ range (n * m), g k = ∑ l ∈ range n, ∑ j ∈ range m, g (l * m + j)
  | 0 => by simp
  | n + 1 => by
    rw [Nat.succ_mul, sum_range_add, sum_range_succ, sum_range_mul_runs g m n]

/-- The accumulation a running total performs: it is set to zero, then each run's contribution is added in turn. -/
def accum {M : Type*} [AddCommMonoid M] (t : ℕ → M) : ℕ → M
  | 0 => 0 + t 0
  | i + 1 => accum t i + t (i + 1)

/-- After run `i` the running total is the sum of the contributions of runs `0 … i`. -/
theorem accum_eq_sum {M : Type*} [AddCommMonoid M] (t : ℕ → M) : ∀ i : ℕ, accum t i = ∑ l ∈ range (i + 1), t l
  | 0 => by simp [accum]
  | i + 1 => by rw [accum, accum_eq_sum t i, ← sum_range_succ t (i + 1)]

section Encoder

variable (P : Fin 1024 → Fin 2016 → Fin 16 → EReal) (Wr : Fin 16 → Fin 64 → EReal) (br : Fin 64 → EReal)
  (Wf : Fin 129024 → Fin 256 → EReal) (bf : Fin 256 → EReal)

/-- Hidden unit `h` of pair `r` of batch row `b`: the first affine layer clamped at zero. -/
def hid (b : Fin 1024) (r : Fin 2016) (h : Fin 64) : EReal :=
  max ((∑ d : Fin 16, P b r d * Wr d h) + br h) 0

/-- The weighted hidden unit at flat position `k` of row `b` for output column `e` (zero past the last position,
    so that it is a function on all naturals). -/
def term (b : Fin 1024) (e : Fin 256) (k : ℕ) : EReal :=
  if hk : k < 129024 then hid P Wr br b ⟨k / 64, by omega⟩ ⟨k % 64, by omega⟩ * Wf ⟨k, hk⟩ e else 0

/-- The contribution of run `l` (positions `7168 l … 7168 l + 7167`, that is pairs `112 l … 112 l + 111`). -/
def tile (b : Fin 1024) (e : Fin 256) (l : ℕ) : EReal :=
  ∑ j ∈ range 7168, term P Wr br Wf b e (l * 7168 + j)

/-- The second affine layer's sum, over all 129024 positions at once. -/
def proj (b : Fin 1024) (e : Fin 256) : EReal :=
  ∑ k : Fin 129024, term P Wr br Wf b e k.val

/-- The encoder's result: the second affine layer clamped at zero. -/
def result (b : Fin 1024) (e : Fin 256) : EReal :=
  max (proj P Wr br Wf b e + bf e) 0

/-- A position inside the table reads its weighted hidden unit. -/
theorem term_eq (b : Fin 1024) (e : Fin 256) (k : ℕ) (r : Fin 2016) (h : Fin 64) (k' : Fin 129024)
    (hr : r.val = k / 64) (hh : h.val = k % 64) (hk : k'.val = k) :
    term P Wr br Wf b e k = hid P Wr br b r h * Wf k' e := by
  have hlt : k < 129024 := hk ▸ k'.isLt
  rw [term, dif_pos hlt]
  have e1 : (⟨k / 64, by omega⟩ : Fin 2016) = r := Fin.ext hr.symm
  have e2 : (⟨k % 64, by omega⟩ : Fin 64) = h := Fin.ext hh.symm
  have e3 : (⟨k, hlt⟩ : Fin 129024) = k' := Fin.ext hk.symm
  rw [e1, e2, e3]

/-- Run `l`'s contribution as a sum over the 7168 positions of the run. -/
theorem tile_eq_sum_fin (b : Fin 1024) (e : Fin 256) (l : ℕ) :
    tile P Wr br Wf b e l = ∑ j : Fin 7168, term P Wr br Wf b e (l * 7168 + j.val) :=
  Finset.sum_range fun j => term P Wr br Wf b e (l * 7168 + j)

/-- The eighteen runs' contributions add up to the sum over every position. -/
theorem sum_tiles (b : Fin 1024) (e : Fin 256) :
    ∑ l ∈ range 18, tile P Wr br Wf b e l = proj P Wr br Wf b e := by
  have h := sum_range_mul_runs (term P Wr br Wf b e) 7168 18
  rw [show 18 * 7168 = 129024 from by norm_num] at h
  unfold tile proj
  rw [← h, Finset.sum_range]

/-- The eighteen runs, accumulated from zero one after the other, add up to the sum over every position. -/
theorem accum_tiles (b : Fin 1024) (e : Fin 256) :
    accum (tile P Wr br Wf b e) 17 = proj P Wr br Wf b e := by
  rw [accum_eq_sum, sum_tiles]

/-- Run `l` written out: position `j` of the run is unit `j % 64` of pair `112 l + j / 64`, weighted by row
    `7168 l + j` of the second layer. -/
theorem tile_eq (b : Fin 1024) (e : Fin 256) (l : ℕ) (hl : l < 18) :
    tile P Wr br Wf b e l
      = ∑ j : Fin 7168, hid P Wr br b ⟨l * 112 + j.val / 64, by have := j.isLt; omega⟩ ⟨j.val % 64, by omega⟩
          * Wf ⟨l * 7168 + j.val, by have := j.isLt; omega⟩ e := by
  rw [tile_eq_sum_fin]
  refine Finset.sum_congr rfl fun j _ => ?_
  exact term_eq P Wr br Wf b e _ _ _ _ (by show l * 112 + j.val / 64 = (l * 7168 + j.val) / 64; omega)
    (by show j.val % 64 = (l * 7168 + j.val) % 64; omega) rfl

/-- The whole sum written out: position `k` is unit `k % 64` of pair `k / 64`. -/
theorem proj_eq (b : Fin 1024) (e : Fin 256) :
    proj P Wr br Wf b e
      = ∑ k : Fin 129024, hid P Wr br b ⟨k.val / 64, by have := k.isLt; omega⟩ ⟨k.val % 64, by omega⟩ * Wf k e := by
  unfold proj
  refine Finset.sum_congr rfl fun k _ => ?_
  exact term_eq P Wr br Wf b e _ _ _ _ rfl rfl rfl

end Encoder

end Cert.PairEnc

end
-- ==== Proof.SpecArr.lean ====
/-
  The relation encoder of Spec.lean stated over arrays: the pair features a rank-3 array [1024, 2016, 16], the two
  layers' weights [16, 64] and [129024, 256], their biases [64] and [256], the result [1024, 256]. Both programs'
  results are stated as this one function of their arrays.
-/
import proofs.«118430_j27127013441944_1_alg».proof.Proof.Spec
import Idealize.ShloMosaic.Lib.ValueIdx

noncomputable section

namespace Cert.PairEnc

open Idealize.ShloMosaic Idealize.ShloMosaic.ValueIdx

/-- The encoder's result array: entry `(b, e)` is `result` of the arrays read at their coordinates. -/
def encode (pairs : (⟨3, ![1024, 2016, 16]⟩ : Shape).Idx → EReal) (w1 : (⟨2, ![16, 64]⟩ : Shape).Idx → EReal)
    (b1 : (⟨1, ![64]⟩ : Shape).Idx → EReal) (w2 : (⟨2, ![129024, 256]⟩ : Shape).Idx → EReal)
    (b2 : (⟨1, ![256]⟩ : Shape).Idx → EReal) : (⟨2, ![1024, 256]⟩ : Shape).Idx → EReal :=
  fun i => result (fun b r d => pairs (ix3 b r d)) (fun d h => w1 (ix2 d h)) (fun h => b1 (ix1 h))
    (fun k e => w2 (ix2 k e)) (fun e => b2 (ix1 e)) (i 0) (i 1)

/-- The result array at explicit coordinates. -/
theorem encode_apply (pairs : (⟨3, ![1024, 2016, 16]⟩ : Shape).Idx → EReal) (w1 : (⟨2, ![16, 64]⟩ : Shape).Idx → EReal)
    (b1 : (⟨1, ![64]⟩ : Shape).Idx → EReal) (w2 : (⟨2, ![129024, 256]⟩ : Shape).Idx → EReal)
    (b2 : (⟨1, ![256]⟩ : Shape).Idx → EReal) (b : Fin 1024) (e : Fin 256) :
    encode pairs w1 b1 w2 b2 (ix2 b e)
      = result (fun b r d => pairs (ix3 b r d)) (fun d h => w1 (ix2 d h)) (fun h => b1 (ix1 h))
          (fun k e => w2 (ix2 k e)) (fun e => b2 (ix1 e)) b e := rfl

end Cert.PairEnc

end
-- ==== Proof.KValue.lean ====
/-
  The kernel's result array as the encoder of Spec.lean.

  Fix a batch tile. Over its 18 relation tiles the scratch block is a running total: the first tile sets it to zero
  plus its own contribution, every later tile adds its contribution, and a tile's contribution at (p, q) is the
  part of the second layer's sum that runs over the tile's 7168 positions (Spec.lean's `tile`). After the last
  tile the total is the whole sum (`sum_tiles`), the epilogue adds the bias and clamps at zero, and that block is
  written back as rows 256 (t / 18) … of the result. The four batch tiles' blocks tile the result array.
-/
import proofs.«118430_j27127013441944_1_alg».proof.Proof.Pieces
import proofs.«118430_j27127013441944_1_alg».proof.Proof.Blocks
import proofs.«118430_j27127013441944_1_alg».proof.Proof.Payload
import proofs.«118430_j27127013441944_1_alg».proof.Proof.SpecArr
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Blocks Cert.KernelIdeal.Pieces Cert.PairEnc

variable (m : (ℓ : Loc nD τ sig) → Buf (Elt Ideal) ℓ) (ρ : Dev nD → PrngReg)

/-- The encoder's five arguments, read off the arrays the region finds. -/
abbrev P (c : Dev nD) : Fin 1024 → Fin 2016 → Fin 16 → EReal := fun b r d => pairArr m c (ix3 b r d)
abbrev Wr (c : Dev nD) : Fin 16 → Fin 64 → EReal := fun d h => w1Arr m c (ix2 d h)
abbrev br (c : Dev nD) : Fin 64 → EReal := fun h => b1Arr m c (ix2 (0 : Fin 1) h)
abbrev Wf (c : Dev nD) : Fin 129024 → Fin 256 → EReal := fun k e => w2Arr m c (ix2 k e)
abbrev bf (c : Dev nD) : Fin 256 → EReal := fun e => b2Arr m c (ix2 (0 : Fin 1) e)

/-- The accumulation step of point `t` at `(p, q)`: what was there plus relation tile `t % 18`'s contribution to
    entry `(256 (t / 18) + p, q)` of the second layer's sum. -/
theorem step_apply (c : Dev nD) (t : Fin cfg0.N) (acc : Vec Ideal S256x256 .f32) (p q : Fin 256) (b : Fin 1024)
    (hb : b.val = t.val / 18 * 256 + p.val) :
    k0_pay2 (F := Ideal) (pairBlk m c t) (w1Blk m c t) (b1Blk m c t) acc (w2Blk m c t) (ix2 p q)
      = acc (ix2 p q) + tile (P m c) (Wr m c) (br m c) (Wf m c) b q (t.val % 18) := by
  have ht := point_lt t
  rw [Payload.pay2_apply, tile_eq _ _ _ _ _ _ _ (by omega)]
  refine congrArg (acc (ix2 p q) + ·) (Finset.sum_congr rfl fun j _ => ?_)
  have hj := j.isLt
  have e1 : ∀ d : Fin 16, pairBlk m c t (ix3 p (⟨j.val / 64, by omega⟩ : Fin 112) d)
      = pairArr m c (ix3 b (⟨t.val % 18 * 112 + j.val / 64, by omega⟩ : Fin 2016) d) :=
    fun d => pairBlk_apply m c t p _ d b _ hb rfl
  have e2 : ∀ d : Fin 16, w1Blk m c t (ix2 d (⟨j.val % 64, by omega⟩ : Fin 64))
      = w1Arr m c (ix2 d (⟨j.val % 64, by omega⟩ : Fin 64)) := fun d => w1Blk_apply m c t d _
  have e3 : b1Blk m c t (ix2 (0 : Fin 1) (⟨j.val % 64, by omega⟩ : Fin 64))
      = b1Arr m c (ix2 (0 : Fin 1) (⟨j.val % 64, by omega⟩ : Fin 64)) := b1Blk_apply m c t 0 _
  have e4 : w2Blk m c t (ix2 j q) = w2Arr m c (ix2 (⟨t.val % 18 * 7168 + j.val, by omega⟩ : Fin 129024) q) :=
    w2Blk_apply m c t j q _ rfl
  simp only [e1, e2, e3, e4]
  rfl

/-- Point `n`'s contribution at an index of the scratch block (zero past the grid, so that it is a function of every
    natural). -/
def addend (c : Dev nD) (n : ℕ) (i : S256x256.Idx) : EReal :=
  if h : n < 72 then
    tile (P m c) (Wr m c) (br m c) (Wf m c) ⟨n / 18 * 256 + (i 0).val, by have := idx2_lt0 i; omega⟩ (i 1) (n % 18)
  else 0

theorem addend_apply (c : Dev nD) (n : ℕ) (hn : n < 72) (p q : Fin 256) (b : Fin 1024)
    (hb : b.val = n / 18 * 256 + p.val) :
    addend m c n (ix2 p q) = tile (P m c) (Wr m c) (br m c) (Wf m c) b q (n % 18) := by
  unfold addend
  rw [dif_pos hn]
  have eb : (⟨n / 18 * 256 + ((ix2 p q : S256x256.Idx) 0).val, by have := p.isLt; show n / 18 * 256 + p.val < 1024; omega⟩ : Fin 1024) = b :=
    Fin.ext hb.symm
  rw [eb]

/-- At the first relation tile of a batch tile the scratch is set to zero plus the tile's contribution. -/
theorem sc_reset (c : Dev nD) (n : ℕ) (hn : n < cfg0.N) (h0 : n % 18 = 0) (acc : Vec Ideal S256x256 .f32)
    (i : S256x256.Idx) : Value.scAt0_0 m c n hn acc i = 0 + addend m c n i := by
  have hN : n < 72 := lt_of_lt_of_eq hn (show cfg0.N = 72 from N_0)
  have h1 : ¬n % 18 = 17 := by omega
  obtain ⟨p, q, rfl⟩ : ∃ (p q : Fin 256), i = ix2 p q := ⟨i 0, i 1, eq_ix2 i⟩
  unfold Value.scAt0_0
  rw [dif_pos h0, dif_neg h1]
  refine (congrFun (scratch_A (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) scM0_0 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N))) (ix2 p q)).trans ?_
  refine (step_apply m c ⟨n, hn⟩ (k0_pay1 (F := Ideal)) p q ⟨n / 18 * 256 + p.val, by have := p.isLt; omega⟩ rfl).trans ?_
  rw [Payload.pay1_apply, addend_apply m c n hN p q ⟨n / 18 * 256 + p.val, by have := p.isLt; omega⟩ rfl]

/-- At every other relation tile the tile's contribution is added to what the tile before left. -/
theorem sc_step (c : Dev nD) (n : ℕ) (hn : n < cfg0.N) (h0 : ¬n % 18 = 0) (acc : Vec Ideal S256x256 .f32)
    (i : S256x256.Idx) : Value.scAt0_0 m c n hn acc i = acc i + addend m c n i := by
  have hN : n < 72 := lt_of_lt_of_eq hn (show cfg0.N = 72 from N_0)
  obtain ⟨p, q, rfl⟩ : ∃ (p q : Fin 256), i = ix2 p q := ⟨i 0, i 1, eq_ix2 i⟩
  unfold Value.scAt0_0
  rw [dif_neg h0]
  by_cases h1 : n % 18 = 17
  · rw [dif_pos h1]
    refine (congrFun (scratch_C (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) scM0_0 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) acc) (ix2 p q)).trans ?_
    refine (step_apply m c ⟨n, hn⟩ acc p q ⟨n / 18 * 256 + p.val, by have := p.isLt; omega⟩ rfl).trans ?_
    rw [addend_apply m c n hN p q ⟨n / 18 * 256 + p.val, by have := p.isLt; omega⟩ rfl]
  · rw [dif_neg h1]
    refine (congrFun (scratch_B (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) scM0_0 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) acc) (ix2 p q)).trans ?_
    refine (step_apply m c ⟨n, hn⟩ acc p q ⟨n / 18 * 256 + p.val, by have := p.isLt; omega⟩ rfl).trans ?_
    rw [addend_apply m c n hN p q ⟨n / 18 * 256 + p.val, by have := p.isLt; omega⟩ rfl]

/-- What the scratch holds after point `t`: the contributions of the relation tiles `0 … t % 18` of its batch tile. -/
theorem scratch_after (c : Dev nD) (t : Fin cfg0.N) (i : S256x256.Idx) :
    (outsAt0 m c t.val t.isLt).2 i
      = 0 + ∑ s ∈ Finset.range (t.val % 18 + 1), addend m c (18 * (t.val / 18) + s) i := by
  have ht := point_lt t
  rw [Value.soutsAt0_0_eq]
  exact Pipeline.accAt_add_apply _ _ (fun _ => (0 : EReal)) (addend m c) (18 * (t.val / 18)) 17
    (fun h i => sc_reset m c _ h (by omega) _ i)
    (fun n h acc i hlo hhi => sc_step m c n h (by omega) acc i)
    (t.val % 18) (by omega) _ i

/-- What the point before `t` left in the scratch. -/
abbrev prevScratch (c : Dev nD) (t : Fin cfg0.N) : Vec Ideal S256x256 .f32 :=
  (outsAt0 m c (t.val - 1) (Nat.lt_of_le_of_lt (Nat.sub_le _ _) t.isLt)).2

/-- The result array: the encoder of the arrays the region finds. -/
def outArr (c : Dev nD) : Vec Ideal S1024x256 .f32 :=
  fun i => result (P m c) (Wr m c) (br m c) (Wf m c) (bf m c) (i 0) (i 1)

/-- At the last relation tile of a batch tile the output block holds, at `(p, q)`, the encoder's result at row
    `256 (t / 18) + p`: the scratch's total is the whole second-layer sum, and the epilogue adds the bias and clamps. -/
theorem out_at_flush (c : Dev nD) (t : Fin cfg0.N) (h1 : t.val % 18 = 17) (p q : Fin 256) (b : Fin 1024)
    (hb : b.val = t.val / 18 * 256 + p.val) :
    (outsAt0 m c t.val t.isLt).1 (ix2 p q) = result (P m c) (Wr m c) (br m c) (Wf m c) (bf m c) b q := by
  have ht := point_lt t
  have h0 : ¬t.val % 18 = 0 := by omega
  have hout : (outsAt0 m c t.val t.isLt).1
      = k0_pay3 (F := Ideal) (k0_pay2 (F := Ideal) (pairBlk m c t) (w1Blk m c t) (b1Blk m c t) (prevScratch m c t) (w2Blk m c t)) (b2Blk m c t) := by
    rw [outsAt0_C m c t h0 h1]; dsimp only
    exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (prevScratch m c t)
  have hsc : (outsAt0 m c t.val t.isLt).2
      = k0_pay2 (F := Ideal) (pairBlk m c t) (w1Blk m c t) (b1Blk m c t) (prevScratch m c t) (w2Blk m c t) := by
    rw [outsAt0_C m c t h0 h1]; dsimp only
    exact scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (prevScratch m c t)
  rw [hout, Payload.pay3_apply, ← hsc, scratch_after m c t (ix2 p q), b2Blk_apply]
  have h18 : t.val % 18 + 1 = 18 := by omega
  rw [h18]
  have hsum : ∑ s ∈ Finset.range 18, addend m c (18 * (t.val / 18) + s) (ix2 p q)
      = proj (P m c) (Wr m c) (br m c) (Wf m c) b q := by
    rw [← sum_tiles]
    refine Finset.sum_congr rfl fun s hs => ?_
    have hs' := Finset.mem_range.mp hs
    rw [addend_apply m c _ (by omega) p q b (by omega)]
    exact congrArg _ (by omega)
  rw [hsum, zero_add]
  rfl

/-- An index of the result array lies in point `t`'s output block iff each coordinate lies in the block's range. -/
theorem mem_blk (t : Fin cfg0.N) (i : S1024x256.Idx) :
    i ∈ ((cfg0.win 5).blk t).view.set ↔ ∀ a : Fin 2, win0_5.index t a * S256x256.size a ≤ (i a).val
      ∧ (i a).val < win0_5.index t a * S256x256.size a + S256x256.size a := by
  show i ∈ ((View.whole main_v21).slice (win0_5.rect t)).set ↔ _
  rw [View.set_slice_whole, Rect.mem_set_unit]
  exact Iff.rfl

/-- What a point that writes back writes: its block of the result array. -/
theorem flushed_eq (c : Dev nD) (t : Fin cfg0.N) (h1 : t.val % 18 = 17) :
    (dats m 0 c).flushed 5 t = ((cfg0.win 5).blk t).view.read (Elt Ideal) (outArr m c) := by
  have ht := point_lt t
  obtain ⟨-, -, -, -, -, -, -, -, -, -, -, e0, e1⟩ := index_facts t
  rw [Value.flushed5]
  funext j
  show (outsAt0 m c t.val t.isLt).1 j = outArr m c (((cfg0.win 5).blk t).view.emb j)
  obtain ⟨p, q, rfl⟩ : ∃ (p q : Fin 256), j = ix2 p q := ⟨j 0, j 1, eq_ix2 j⟩
  have hemb : ((cfg0.win 5).blk t).view.emb (ix2 p q)
      = ix2 (⟨t.val / 18 * 256 + p.val, by have := p.isLt; omega⟩ : Fin 1024) q := by
    funext a; apply Fin.ext
    match a with
    | ⟨0, _⟩ => show win0_5.index t (0 : Fin 2) * 256 + 1 * p.val = t.val / 18 * 256 + p.val; omega
    | ⟨1, _⟩ => show win0_5.index t (1 : Fin 2) * 256 + 1 * q.val = q.val; omega
  rw [hemb]
  exact out_at_flush m c t h1 p q _ rfl

/-- Every index of the result array lies in the block some point writes back: row `i` in batch tile `i / 256`,
    written at its last relation tile. -/
theorem cover (i : S1024x256.Idx) :
    ∃ t : Fin cfg0.N, (cfg0.win 5).flush t = true ∧ i ∈ ((cfg0.win 5).blk t).view.set := by
  have hi0 : (i 0).val < 1024 := idx2_lt0 i
  have hi1 : (i 1).val < 256 := idx2_lt1 i
  have hN : cfg0.N = 72 := N_0
  refine ⟨⟨18 * ((i 0).val / 256) + 17, by rw [hN]; omega⟩, ?_, ?_⟩
  · exact (flush0_5 _).mpr (by show (18 * ((i 0).val / 256) + 17) % 18 = 17; omega)
  · obtain ⟨-, -, -, -, -, -, -, -, -, -, -, e0, e1⟩ :=
      index_facts ⟨18 * ((i 0).val / 256) + 17, by rw [hN]; omega⟩
    rw [mem_blk]
    intro a
    match a with
    | ⟨0, _⟩ =>
      show win0_5.index ⟨18 * ((i 0).val / 256) + 17, _⟩ (0 : Fin 2) * 256 ≤ (i 0).val
        ∧ (i 0).val < win0_5.index ⟨18 * ((i 0).val / 256) + 17, _⟩ (0 : Fin 2) * 256 + 256
      rw [e0]
      show (18 * ((i 0).val / 256) + 17) / 18 * 256 ≤ (i 0).val ∧ (i 0).val < (18 * ((i 0).val / 256) + 17) / 18 * 256 + 256
      omega
    | ⟨1, _⟩ =>
      show win0_5.index ⟨18 * ((i 0).val / 256) + 17, _⟩ (1 : Fin 2) * 256 ≤ (i 1).val
        ∧ (i 1).val < win0_5.index ⟨18 * ((i 0).val / 256) + 17, _⟩ (1 : Fin 2) * 256 + 256
      rw [e1]
      omega

/-- After the run the result array is the encoder of the arrays the region found. -/
theorem final (c : Dev nD) : (dats m 0 c).arrAt 5 cfg0.N = outArr m c :=
  (dats m 0 c).arrAt_eq_of_cover 5 (outArr m c) (fun t hf => flushed_eq m c t ((flush0_5 t).mp hf)) cover

/-- The kernel's run with its result array named. -/
theorem run : θ_run defs (onTc (τ := τ) (main (F := Ideal))) ⟨m, fun _ => 0, ρ⟩ fun r => ∀ c : Dev nD,
      r.2.mem ((c : Thread nD τ).loc main_v21) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KValue

end
-- ==== Proof.RefValue.lean ====
/-
  The reference program's result as one term of its five arguments, and that term read entry by entry.

  From the context array [1024, 512] the reference builds the pair features [1024, 2016, 16] (each row cut into
  64 entities of 8 features; for each of the 2016 pairs `i < j` the features of entity `i` followed by those of
  entity `j`). These stay one opaque array `pairs x`: nothing here reads inside it. On top of it,
      hidden (b, r, h) = max (Σ_d pairs (b, r, d) · W₁ (d, h) + b₁ h) 0,
  the 2016 × 64 hidden units of a row are laid out flat (unit `h` of pair `r` at position `64 r + h`), and
      result (b, e) = max (Σ_k flat (b, k) · W₂ (k, e) + b₂ e) 0,            k < 129024.
  Each operation is read at an index given by explicit coordinates: a bias spread over leading axes reads the bias
  at the trailing coordinate, the zero constant reads the extended real zero, the flattening reads the index with
  the same row-major position (`(b · 2016 + k / 64) · 64 + k % 64 = b · 129024 + k`), and a contraction is the sum
  over its one contracted axis, re-indexed by that axis's coordinate. Chained, the term is the relation encoder
  of Spec.lean applied to `pairs x` and the four parameter arrays.
-/
import proofs.«118430_j27127013441944_1_alg».proof.ReferenceIdeal
import proofs.«118430_j27127013441944_1_alg».proof.Proof.Gen.ReferenceIdeal
import proofs.«118430_j27127013441944_1_alg».proof.Proof.SpecArr
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.ValueIdx Cert.ReferenceIdeal
open Cert.ReferenceIdeal.Facts₀

/-! ## The reference as one term of its arguments -/

/-- An entity-index table made non-negative: an entry below zero has the entity count 64 added to it (the sign
    wrap an array subscript performs), any other entry is kept; then the table is given a trailing unit axis, the
    form a gather takes its start indices in. -/
def wrapIdx (c : (⟨S2016, .i32⟩ : BufTy).Contents (Elt Ideal)) : (⟨S2016x1, .i32⟩ : BufTy).Contents (Elt Ideal) :=
  broadcastInDim S2016x1 ![0] bcast_S2016_S2016x1_0
    (select (cmpi .slt c (broadcastInDim S2016 ![] bcast_S_S2016 (constantI S_ 32 0#32)))
      (addi c (broadcastInDim S2016 ![] bcast_S_S2016 (constantI S_ 32 64#32))) c)

/-- The pair features as the reference builds them from the context array: the context rows are cut into 64
    entities of 8 features each, the first and the second entity of each of the 2016 pairs are gathered along the
    entity axis through the two literal index tables (sign-wrapped), and the two gathered blocks are laid side
    by side along the feature axis, 16 features per pair. Nothing below reads inside it: both programs' results
    are stated as one function of this array. -/
def pairs (x : (⟨S1024x512, .f32⟩ : BufTy).Contents (Elt Ideal)) : (⟨S1024x2016x16, .f32⟩ : BufTy).Contents (Elt Ideal) :=
  concatenate S1024x2016x16 2
    [⟨S1024x2016x8, Host.gather gather_S1024x64x8_S2016x1_S1024x2016x8_02_1_n_n_1_1_102418
        (shapeCast S1024x64x8 x shapeCasts_S1024x512_S1024x64x8) (wrapIdx fun i => lit0 (S2016.rowMajor i))⟩,
     ⟨S1024x2016x8, Host.gather gather_S1024x64x8_S2016x1_S1024x2016x8_02_1_n_n_1_1_102418
        (shapeCast S1024x64x8 x shapeCasts_S1024x512_S1024x64x8) (wrapIdx fun i => lit1 (S2016.rowMajor i))⟩]
    concatenates_S1024x2016x8_S1024x2016x8_S1024x2016x16_d2

/-- The first layer before its clamp: the pair features contracted with the first weight over the 16 features,
    plus the first bias spread over batch rows and pairs. -/
def pre1 (p : (⟨S1024x2016x16, .f32⟩ : BufTy).Contents (Elt Ideal)) (x1 : (⟨S16x64, .f32⟩ : BufTy).Contents (Elt Ideal))
    (x2 : (⟨S64, .f32⟩ : BufTy).Contents (Elt Ideal)) : (⟨S1024x2016x64, .f32⟩ : BufTy).Contents (Elt Ideal) :=
  addf (F := Ideal) (φ := .f32) (Host.dotGeneral (F := Ideal) (φ₁ := .f32) (φ₂ := .f32) dot_S1024x2016x16_S16x64_S1024x2016x64_2_0_01_1_n_n none p x1)
    (broadcastInDim S1024x2016x64 ![0, 1, 2] bcast_S1x1x64_S1024x2016x64_0_1_2
      (broadcastInDim S1x1x64 ![2] bcast_S64_S1x1x64_2 x2))

/-- The hidden units: the first layer clamped at zero. -/
def hidden (p : (⟨S1024x2016x16, .f32⟩ : BufTy).Contents (Elt Ideal)) (x1 : (⟨S16x64, .f32⟩ : BufTy).Contents (Elt Ideal))
    (x2 : (⟨S64, .f32⟩ : BufTy).Contents (Elt Ideal)) : (⟨S1024x2016x64, .f32⟩ : BufTy).Contents (Elt Ideal) :=
  maximumf (F := Ideal) (φ := .f32) (pre1 p x1 x2) (broadcastInDim S1024x2016x64 ![] bcast_S_S1024x2016x64 (constant (F := Ideal) S_ .f32 0x00000000#32))

/-- The second layer before its clamp: each row's 2016 × 64 hidden units laid out flat, contracted with the
    second weight over the 129024 positions, plus the second bias spread over batch rows. -/
def pre2 (hd : (⟨S1024x2016x64, .f32⟩ : BufTy).Contents (Elt Ideal)) (x3 : (⟨S129024x256, .f32⟩ : BufTy).Contents (Elt Ideal))
    (x4 : (⟨S256, .f32⟩ : BufTy).Contents (Elt Ideal)) : (⟨S1024x256, .f32⟩ : BufTy).Contents (Elt Ideal) :=
  addf (F := Ideal) (φ := .f32) (Host.dotGeneral (F := Ideal) (φ₁ := .f32) (φ₂ := .f32) dot_S1024x129024_S129024x256_S1024x256_1_0_0_1_n_n none
      (shapeCast S1024x129024 hd shapeCasts_S1024x2016x64_S1024x129024) x3)
    (broadcastInDim S1024x256 ![0, 1] bcast_S1x256_S1024x256_0_1 (broadcastInDim S1x256 ![1] bcast_S256_S1x256_1 x4))

/-- The reference's result as one term of its five arguments. -/
def refTerm (x0 : (⟨S1024x512, .f32⟩ : BufTy).Contents (Elt Ideal)) (x1 : (⟨S16x64, .f32⟩ : BufTy).Contents (Elt Ideal))
    (x2 : (⟨S64, .f32⟩ : BufTy).Contents (Elt Ideal)) (x3 : (⟨S129024x256, .f32⟩ : BufTy).Contents (Elt Ideal))
    (x4 : (⟨S256, .f32⟩ : BufTy).Contents (Elt Ideal)) : (⟨S1024x256, .f32⟩ : BufTy).Contents (Elt Ideal) :=
  maximumf (F := Ideal) (φ := .f32) (pre2 (hidden (pairs x0) x1 x2) x3 x4)
    (broadcastInDim S1024x256 ![] bcast_S_S1024x256 (constant (F := Ideal) S_ .f32 0x00000000#32))

/-! ## Reading the layout operations at an index -/

/-- The first bias, spread over batch rows and pairs, reads the bias at the hidden unit. -/
theorem bias1_apply (x2 : S64.Idx → EReal) (b : Fin 1024) (r : Fin 2016) (h : Fin 64) :
    broadcastInDim S1024x2016x64 ![0, 1, 2] bcast_S1x1x64_S1024x2016x64_0_1_2
      (broadcastInDim S1x1x64 ![2] bcast_S64_S1x1x64_2 x2) (ix3 b r h) = x2 (ix1 h) := by
  refine (broadcastInDim_apply _ _ _ (ix3 b r h) (ix3 (0 : Fin 1) (0 : Fin 1) h) fun a => ?_).trans
    (broadcastInDim_apply _ _ _ (ix3 (0 : Fin 1) (0 : Fin 1) h) (ix1 h) fun a => ?_)
  · match a with
    | ⟨0, _⟩ => rfl
    | ⟨1, _⟩ => rfl
    | ⟨2, _⟩ => rfl
  · match a with
    | ⟨0, _⟩ => rfl

/-- The second bias, spread over batch rows, reads the bias at the output column. -/
theorem bias2_apply (x4 : S256.Idx → EReal) (b : Fin 1024) (e : Fin 256) :
    broadcastInDim S1024x256 ![0, 1] bcast_S1x256_S1024x256_0_1
      (broadcastInDim S1x256 ![1] bcast_S256_S1x256_1 x4) (ix2 b e) = x4 (ix1 e) := by
  refine (broadcastInDim_apply _ _ _ (ix2 b e) (ix2 (0 : Fin 1) e) fun a => ?_).trans
    (broadcastInDim_apply _ _ _ (ix2 (0 : Fin 1) e) (ix1 e) fun a => ?_)
  · match a with
    | ⟨0, _⟩ => rfl
    | ⟨1, _⟩ => rfl
  · match a with
    | ⟨0, _⟩ => rfl

/-- The zero constant spread over an array reads the extended real zero everywhere. -/
theorem zero3_apply (j : S1024x2016x64.Idx) :
    broadcastInDim S1024x2016x64 ![] bcast_S_S1024x2016x64 (constant (F := Ideal) S_ .f32 0x00000000#32) j = (0 : EReal) := by
  refine (broadcastInDim_apply _ _ _ j ix0 fun a => a.elim0).trans ?_
  exact Ideal.ofBits_zero_f32

theorem zero2_apply (j : S1024x256.Idx) :
    broadcastInDim S1024x256 ![] bcast_S_S1024x256 (constant (F := Ideal) S_ .f32 0x00000000#32) j = (0 : EReal) := by
  refine (broadcastInDim_apply _ _ _ j ix0 fun a => a.elim0).trans ?_
  exact Ideal.ofBits_zero_f32

/-- A row's hidden units laid out flat: position `k` of row `b` is unit `k % 64` of pair `k / 64`
    (the row-major positions agree: `(b · 2016 + k / 64) · 64 + k % 64 = b · 129024 + k`). -/
theorem flat_apply (hd : S1024x2016x64.Idx → EReal) (b : Fin 1024) (k : Fin 129024) :
    shapeCast S1024x129024 hd shapeCasts_S1024x2016x64_S1024x129024 (ix2 b k)
      = hd (ix3 b ⟨k.val / 64, by have := k.isLt; omega⟩ ⟨k.val % 64, by omega⟩) := by
  refine shapeCast_apply hd _ (ix2 b k) _ ?_
  rw [Shape.rowMajor_val_three, Shape.rowMajor_val_two]
  show (b.val * 2016 + k.val / 64) * 64 + k.val % 64 = b.val * 129024 + k.val
  omega

/-! ## The two contractions at an index

Each operand index of a contraction is read axis by axis: a free axis reads the result index's coordinate, the
contracted axis reads the contraction index's one coordinate. -/

theorem lhs_dot1_0 (i : S1024x2016x64.Idx) (q : dot_S1024x2016x16_S16x64_S1024x2016x64_2_0_01_1_n_n.contr.Idx) :
    (dot_S1024x2016x16_S16x64_S1024x2016x64_2_0_01_1_n_n.lhsIdx i q 0).val = (i 0).val := by
  unfold DotDims.lhsIdx
  rw [dif_neg (show ¬(0 : Fin S1024x2016x16.rank) ∈ dot_S1024x2016x16_S16x64_S1024x2016x64_2_0_01_1_n_n.lhsBatch by decide), dif_pos (show (0 : Fin S1024x2016x16.rank) ∈ dot_S1024x2016x16_S16x64_S1024x2016x64_2_0_01_1_n_n.lhsNonContracting by decide)]
  rfl
theorem lhs_dot1_1 (i : S1024x2016x64.Idx) (q : dot_S1024x2016x16_S16x64_S1024x2016x64_2_0_01_1_n_n.contr.Idx) :
    (dot_S1024x2016x16_S16x64_S1024x2016x64_2_0_01_1_n_n.lhsIdx i q 1).val = (i 1).val := by
  unfold DotDims.lhsIdx
  rw [dif_neg (show ¬(1 : Fin S1024x2016x16.rank) ∈ dot_S1024x2016x16_S16x64_S1024x2016x64_2_0_01_1_n_n.lhsBatch by decide), dif_pos (show (1 : Fin S1024x2016x16.rank) ∈ dot_S1024x2016x16_S16x64_S1024x2016x64_2_0_01_1_n_n.lhsNonContracting by decide)]
  rfl
theorem lhs_dot1_2 (i : S1024x2016x64.Idx) (q : dot_S1024x2016x16_S16x64_S1024x2016x64_2_0_01_1_n_n.contr.Idx) :
    (dot_S1024x2016x16_S16x64_S1024x2016x64_2_0_01_1_n_n.lhsIdx i q 2).val = (q ⟨0, by decide⟩).val :=
  dot_S1024x2016x16_S16x64_S1024x2016x64_2_0_01_1_n_n.lhsIdx_val_of_single rfl i q
theorem rhs_dot1_0 (i : S1024x2016x64.Idx) (q : dot_S1024x2016x16_S16x64_S1024x2016x64_2_0_01_1_n_n.contr.Idx) :
    (dot_S1024x2016x16_S16x64_S1024x2016x64_2_0_01_1_n_n.rhsIdx i q 0).val = (q ⟨0, by decide⟩).val :=
  dot_S1024x2016x16_S16x64_S1024x2016x64_2_0_01_1_n_n.rhsIdx_val_of_single rfl i q
theorem rhs_dot1_1 (i : S1024x2016x64.Idx) (q : dot_S1024x2016x16_S16x64_S1024x2016x64_2_0_01_1_n_n.contr.Idx) :
    (dot_S1024x2016x16_S16x64_S1024x2016x64_2_0_01_1_n_n.rhsIdx i q 1).val = (i 2).val := by
  unfold DotDims.rhsIdx
  rw [dif_neg (show ¬(1 : Fin S16x64.rank) ∈ dot_S1024x2016x16_S16x64_S1024x2016x64_2_0_01_1_n_n.rhsBatch by decide), dif_pos (show (1 : Fin S16x64.rank) ∈ dot_S1024x2016x16_S16x64_S1024x2016x64_2_0_01_1_n_n.rhsNonContracting by decide)]
  rfl

/-- The first contraction at `(b, r, h)`: the sum over the 16 features of pair feature times weight. -/
theorem dot1_apply (p : S1024x2016x16.Idx → EReal) (w : S16x64.Idx → EReal) (b : Fin 1024) (r : Fin 2016) (h : Fin 64) :
    Host.dotGeneral (F := Ideal) (φ₁ := .f32) (φ₂ := .f32) dot_S1024x2016x16_S16x64_S1024x2016x64_2_0_01_1_n_n none p w (ix3 b r h)
      = ∑ d : Fin 16, p (ix3 b r d) * w (ix2 d h) := by
  simp only [Host.dotGeneral]
  rw [Ideal.dotGeneral_apply, ← Equiv.sum_comp (ValueIdx.contrEquiv1 dot_S1024x2016x16_S16x64_S1024x2016x64_2_0_01_1_n_n 16 rfl rfl).symm]
  refine Finset.sum_congr rfl fun k _ => ?_
  have hk := ValueIdx.contrEquiv1_symm_val dot_S1024x2016x16_S16x64_S1024x2016x64_2_0_01_1_n_n 16 rfl rfl k
  have el : dot_S1024x2016x16_S16x64_S1024x2016x64_2_0_01_1_n_n.lhsIdx (ix3 b r h) ((ValueIdx.contrEquiv1 dot_S1024x2016x16_S16x64_S1024x2016x64_2_0_01_1_n_n 16 rfl rfl).symm k) = ix3 b r k :=
    funext fun a => Fin.ext (by
      match a with
      | ⟨0, _⟩ => exact lhs_dot1_0 _ _
      | ⟨1, _⟩ => exact lhs_dot1_1 _ _
      | ⟨2, _⟩ => exact (lhs_dot1_2 _ _).trans hk)
  have er : dot_S1024x2016x16_S16x64_S1024x2016x64_2_0_01_1_n_n.rhsIdx (ix3 b r h) ((ValueIdx.contrEquiv1 dot_S1024x2016x16_S16x64_S1024x2016x64_2_0_01_1_n_n 16 rfl rfl).symm k) = ix2 k h :=
    funext fun a => Fin.ext (by
      match a with
      | ⟨0, _⟩ => exact (rhs_dot1_0 _ _).trans hk
      | ⟨1, _⟩ => exact rhs_dot1_1 _ _)
  rw [el, er]

theorem lhs_dot2_0 (i : S1024x256.Idx) (q : dot_S1024x129024_S129024x256_S1024x256_1_0_0_1_n_n.contr.Idx) :
    (dot_S1024x129024_S129024x256_S1024x256_1_0_0_1_n_n.lhsIdx i q 0).val = (i 0).val := by
  unfold DotDims.lhsIdx
  rw [dif_neg (show ¬(0 : Fin S1024x129024.rank) ∈ dot_S1024x129024_S129024x256_S1024x256_1_0_0_1_n_n.lhsBatch by decide), dif_pos (show (0 : Fin S1024x129024.rank) ∈ dot_S1024x129024_S129024x256_S1024x256_1_0_0_1_n_n.lhsNonContracting by decide)]
  rfl
theorem lhs_dot2_1 (i : S1024x256.Idx) (q : dot_S1024x129024_S129024x256_S1024x256_1_0_0_1_n_n.contr.Idx) :
    (dot_S1024x129024_S129024x256_S1024x256_1_0_0_1_n_n.lhsIdx i q 1).val = (q ⟨0, by decide⟩).val :=
  dot_S1024x129024_S129024x256_S1024x256_1_0_0_1_n_n.lhsIdx_val_of_single rfl i q
theorem rhs_dot2_0 (i : S1024x256.Idx) (q : dot_S1024x129024_S129024x256_S1024x256_1_0_0_1_n_n.contr.Idx) :
    (dot_S1024x129024_S129024x256_S1024x256_1_0_0_1_n_n.rhsIdx i q 0).val = (q ⟨0, by decide⟩).val :=
  dot_S1024x129024_S129024x256_S1024x256_1_0_0_1_n_n.rhsIdx_val_of_single rfl i q
theorem rhs_dot2_1 (i : S1024x256.Idx) (q : dot_S1024x129024_S129024x256_S1024x256_1_0_0_1_n_n.contr.Idx) :
    (dot_S1024x129024_S129024x256_S1024x256_1_0_0_1_n_n.rhsIdx i q 1).val = (i 1).val := by
  unfold DotDims.rhsIdx
  rw [dif_neg (show ¬(1 : Fin S129024x256.rank) ∈ dot_S1024x129024_S129024x256_S1024x256_1_0_0_1_n_n.rhsBatch by decide), dif_pos (show (1 : Fin S129024x256.rank) ∈ dot_S1024x129024_S129024x256_S1024x256_1_0_0_1_n_n.rhsNonContracting by decide)]
  rfl

/-- The second contraction at `(b, e)`: the sum over the 129024 flat positions of hidden unit times weight. -/
theorem dot2_apply (l : S1024x129024.Idx → EReal) (w : S129024x256.Idx → EReal) (b : Fin 1024) (e : Fin 256) :
    Host.dotGeneral (F := Ideal) (φ₁ := .f32) (φ₂ := .f32) dot_S1024x129024_S129024x256_S1024x256_1_0_0_1_n_n none l w (ix2 b e)
      = ∑ k : Fin 129024, l (ix2 b k) * w (ix2 k e) := by
  simp only [Host.dotGeneral]
  rw [Ideal.dotGeneral_apply, ← Equiv.sum_comp (ValueIdx.contrEquiv1 dot_S1024x129024_S129024x256_S1024x256_1_0_0_1_n_n 129024 rfl rfl).symm]
  refine Finset.sum_congr rfl fun k _ => ?_
  have hk := ValueIdx.contrEquiv1_symm_val dot_S1024x129024_S129024x256_S1024x256_1_0_0_1_n_n 129024 rfl rfl k
  have el : dot_S1024x129024_S129024x256_S1024x256_1_0_0_1_n_n.lhsIdx (ix2 b e) ((ValueIdx.contrEquiv1 dot_S1024x129024_S129024x256_S1024x256_1_0_0_1_n_n 129024 rfl rfl).symm k) = ix2 b k :=
    funext fun a => Fin.ext (by
      match a with
      | ⟨0, _⟩ => exact lhs_dot2_0 _ _
      | ⟨1, _⟩ => exact (lhs_dot2_1 _ _).trans hk)
  have er : dot_S1024x129024_S129024x256_S1024x256_1_0_0_1_n_n.rhsIdx (ix2 b e) ((ValueIdx.contrEquiv1 dot_S1024x129024_S129024x256_S1024x256_1_0_0_1_n_n 129024 rfl rfl).symm k) = ix2 k e :=
    funext fun a => Fin.ext (by
      match a with
      | ⟨0, _⟩ => exact (rhs_dot2_0 _ _).trans hk
      | ⟨1, _⟩ => exact rhs_dot2_1 _ _)
  rw [el, er]

/-! ## The reference's term is the encoder of its pair features -/

/-- A hidden unit of the reference's term is the encoder's: the first contraction plus the bias, clamped at zero. -/
theorem hidden_apply (p : (⟨S1024x2016x16, .f32⟩ : BufTy).Contents (Elt Ideal)) (x1 : (⟨S16x64, .f32⟩ : BufTy).Contents (Elt Ideal))
    (x2 : (⟨S64, .f32⟩ : BufTy).Contents (Elt Ideal)) (b : Fin 1024) (r : Fin 2016) (h : Fin 64) :
    hidden p x1 x2 (ix3 b r h)
      = Cert.PairEnc.hid (fun b r d => p (ix3 b r d)) (fun d h => x1 (ix2 d h)) (fun h => x2 (ix1 h)) b r h := by
  unfold hidden pre1 Cert.PairEnc.hid
  rw [maximumf_apply, addf_apply, zero3_apply, dot1_apply, bias1_apply]

/-- The reference's term, entry by entry, is the relation encoder applied to the pair features it builds. -/
theorem refTerm_eq (x0 : (⟨S1024x512, .f32⟩ : BufTy).Contents (Elt Ideal)) (x1 : (⟨S16x64, .f32⟩ : BufTy).Contents (Elt Ideal))
    (x2 : (⟨S64, .f32⟩ : BufTy).Contents (Elt Ideal)) (x3 : (⟨S129024x256, .f32⟩ : BufTy).Contents (Elt Ideal))
    (x4 : (⟨S256, .f32⟩ : BufTy).Contents (Elt Ideal)) :
    refTerm x0 x1 x2 x3 x4 = Cert.PairEnc.encode (pairs x0) x1 x2 x3 x4 := by
  unfold refTerm
  generalize pairs x0 = p
  funext i
  obtain ⟨b, e, rfl⟩ : ∃ (b : Fin 1024) (e : Fin 256), i = ix2 b e := ⟨i 0, i 1, eq_ix2 i⟩
  rw [Cert.PairEnc.encode_apply]
  unfold Cert.PairEnc.result
  rw [Cert.PairEnc.proj_eq]
  unfold pre2
  rw [maximumf_apply, addf_apply, zero2_apply, dot2_apply, bias2_apply]
  refine congrArg (fun s => max (s + x4 (ix1 e)) 0) (Finset.sum_congr rfl fun k _ => ?_)
  rw [flat_apply, hidden_apply]

end Cert.ReferenceIdeal.RefValue

end
-- ==== Proof.HostGlue.lean ====
/-
  The arrays the kernel's region finds, in terms of the program's arguments.

  Before the region the host builds the pair features from the context array by the very chain of operations the
  reference uses (cut each row into 64 entities of 8 features, gather the first and the second entity of every
  pair through the two literal index tables, lay the two halves side by side), only through narrower float formats;
  over the extended reals a change of float format is the identity, so the region's pair array IS the reference's
  pair array of the same context. The two weight matrices arrive through a change of format (the identity), the
  two biases with a leading unit axis added. So the kernel's result array is the encoder of Spec.lean applied to
  the reference's pair array and the four parameter arrays.
-/
import proofs.«118430_j27127013441944_1_alg».proof.Proof.KValue
import proofs.«118430_j27127013441944_1_alg».proof.Proof.RefValue
import Idealize.ShloMosaic.Lib.StableHlo.Run
import Idealize.ShloMosaic.Lib.ValueLayout

noncomputable section

open Idealize.ShloMosaic Idealize.ShloMosaic.TcCoe Idealize.SL.Sem Idealize.ShloMosaic.ValueIdx Idealize.ShloMosaic.StableHlo

namespace Cert.KernelIdeal.HostGlue

open Cert.KernelIdeal Cert.KernelIdeal.Gen Cert.KernelIdeal.Blocks Cert.PairEnc

variable (m : (ℓ : Loc nD τ sig) → Buf (Elt Ideal) ℓ)

/-- The first weight matrix reaches the region through a change of float format: unchanged. -/
theorem w1Arr_eq (c : Dev nD) : w1Arr m c = m ((c : Thread nD τ).loc main_arg1) := by
  show (V m c main_v17 : (⟨S16x64, .bf16⟩ : BufTy).Contents (Elt Ideal)) = _
  dsimp only [V, hostOps0]
  after_results
  rfl

/-- The second weight matrix likewise. -/
theorem w2Arr_eq (c : Dev nD) : w2Arr m c = m ((c : Thread nD τ).loc main_arg3) := by
  show (V m c main_v18 : (⟨S129024x256, .bf16⟩ : BufTy).Contents (Elt Ideal)) = _
  dsimp only [V, hostOps0]
  after_results
  rfl

/-- The first bias reaches the region as a one-row matrix: its row is the bias. -/
theorem b1Arr_apply (c : Dev nD) (h : Fin 64) :
    b1Arr m c (ix2 (0 : Fin 1) h) = m ((c : Thread nD τ).loc main_arg2) (ix1 h) := by
  have e : (V m c main_v19 : (⟨S1x64, .f32⟩ : BufTy).Contents (Elt Ideal))
      = shapeCast S1x64 (m ((c : Thread nD τ).loc main_arg2)) shapeCasts_S64_S1x64 := by
    dsimp only [V, hostOps0]
    after_results
    rfl
  show (V m c main_v19 : (⟨S1x64, .f32⟩ : BufTy).Contents (Elt Ideal)) (ix2 (0 : Fin 1) h) = _
  rw [e]
  exact shapeCast_a_1a_apply _ _ _ _

/-- The second bias likewise. -/
theorem b2Arr_apply (c : Dev nD) (e : Fin 256) :
    b2Arr m c (ix2 (0 : Fin 1) e) = m ((c : Thread nD τ).loc main_arg4) (ix1 e) := by
  have e' : (V m c main_v20 : (⟨S1x256, .f32⟩ : BufTy).Contents (Elt Ideal))
      = shapeCast S1x256 (m ((c : Thread nD τ).loc main_arg4)) shapeCasts_S256_S1x256 := by
    dsimp only [V, hostOps0]
    after_results
    rfl
  show (V m c main_v20 : (⟨S1x256, .f32⟩ : BufTy).Contents (Elt Ideal)) (ix2 (0 : Fin 1) e) = _
  rw [e']
  exact shapeCast_a_1a_apply _ _ _ _

-- the chain of twenty-three operations behind the pair array is rewritten one (operation, buffer) pair at a time
set_option maxHeartbeats 4000000 in
/-- The region's pair array is the reference's pair array of the same context: the same reshape, the same two
    gathers through the same two tables, the same concatenation; the change of float format in front is the
    identity over the extended reals. -/
theorem pairArr_eq (c : Dev nD) :
    pairArr m c = Cert.ReferenceIdeal.RefValue.pairs (m ((c : Thread nD τ).loc main_arg0)) := by
  show (V m c main_v16 : (⟨S1024x2016x16, .bf16⟩ : BufTy).Contents (Elt Ideal)) = _
  dsimp only [V, hostOps0]
  after_results
  rfl

/-- The kernel's result array is the encoder applied to the reference's pair array of the context and to the
    four parameter arrays. -/
theorem outArr_eq (c : Dev nD) :
    KValue.outArr m c = encode (Cert.ReferenceIdeal.RefValue.pairs (m ((c : Thread nD τ).loc main_arg0)))
      (m ((c : Thread nD τ).loc main_arg1)) (m ((c : Thread nD τ).loc main_arg2))
      (m ((c : Thread nD τ).loc main_arg3)) (m ((c : Thread nD τ).loc main_arg4)) := by
  have hP : KValue.P m c = fun b r d => Cert.ReferenceIdeal.RefValue.pairs (m ((c : Thread nD τ).loc main_arg0)) (ix3 b r d) := by
    funext b r d; exact congrFun (pairArr_eq m c) _
  have hW1 : KValue.Wr m c = fun d h => m ((c : Thread nD τ).loc main_arg1) (ix2 d h) := by
    funext d h; exact congrFun (w1Arr_eq m c) _
  have hb1 : KValue.br m c = fun h => m ((c : Thread nD τ).loc main_arg2) (ix1 h) := by
    funext h; exact b1Arr_apply m c h
  have hW2 : KValue.Wf m c = fun k e => m ((c : Thread nD τ).loc main_arg3) (ix2 k e) := by
    funext k e; exact congrFun (w2Arr_eq m c) _
  have hb2 : KValue.bf m c = fun e => m ((c : Thread nD τ).loc main_arg4) (ix1 e) := by
    funext e; exact b2Arr_apply m c e
  funext i
  unfold KValue.outArr encode
  rw [hP, hW1, hb1, hW2, hb2]

end Cert.KernelIdeal.HostGlue

end
-- ==== Proof.RefRun.lean ====
/-
  The reference program as a straight line of host operations, and its run read back.

  The program is 37 operations in a row once the two clamp functions are unfolded where they are called (each is
  three operations: the zero constant, its spread over the array, the maximum). Run from any memory, every
  buffer ends at the fold of the operations' results over the launch contents; at the result buffer that fold is
  the reference's term of the five arguments (RefValue.lean), which is the relation encoder of the pair features
  built from the context array; no operation writes an argument's buffer.
-/
import proofs.«118430_j27127013441944_1_alg».proof.Proof.RefValue
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

section Program

variable {F : FTy → Type} [FloatOps F]

/-- The reference's operations in order, the two clamps' bodies written out where they are called: the two index
    tables, the cut into entities, for each table its sign wrap (zero, comparison, 64, sum, choice), trailing unit
    axis and gather, the concatenation; the first contraction, its bias spread in two steps and added, the clamp
    (zero, its spread, the maximum); the flattening, the second contraction, its bias likewise, the clamp. -/
abbrev ops : List (HloOp τ sig (Elt F)) :=
  [ nullary main_c (fun i => lit0 (S2016.rowMajor i)),
    nullary main_c_0 (fun i => lit1 (S2016.rowMajor i)),
    reshape main_arg0 main_v0 rfl shapeCasts_S1024x512_S1024x64x8,
    nullary main_c_1 (constantI S_ 32 0#32),
    unary main_c_1 main_v1 (broadcastInDim S2016 ![] bcast_S_S2016 : (⟨S_, .i32⟩ : BufTy).Contents (Elt F) → (⟨S2016, .i32⟩ : BufTy).Contents (Elt F)),
    binary main_c main_v1 main_v2 (cmpi .slt : (⟨S2016, .i32⟩ : BufTy).Contents (Elt F) → (⟨S2016, .i32⟩ : BufTy).Contents (Elt F) → (⟨S2016, .i1⟩ : BufTy).Contents (Elt F)),
    nullary main_c_2 (constantI S_ 32 64#32),
    unary main_c_2 main_v3 (broadcastInDim S2016 ![] bcast_S_S2016 : (⟨S_, .i32⟩ : BufTy).Contents (Elt F) → (⟨S2016, .i32⟩ : BufTy).Contents (Elt F)),
    binary main_c main_v3 main_v4 (addi : (⟨S2016, .i32⟩ : BufTy).Contents (Elt F) → (⟨S2016, .i32⟩ : BufTy).Contents (Elt F) → (⟨S2016, .i32⟩ : BufTy).Contents (Elt F)),
    ternary main_v2 main_v4 main_c main_v5 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v5 main_v6 (broadcastInDim S2016x1 ![0] bcast_S2016_S2016x1_0 : (⟨S2016, .i32⟩ : BufTy).Contents (Elt F) → (⟨S2016x1, .i32⟩ : BufTy).Contents (Elt F)),
    binary main_v0 main_v6 main_v7 ((fun x i => Host.gather gather_S1024x64x8_S2016x1_S1024x2016x8_02_1_n_n_1_1_102418 x i) : (⟨S1024x64x8, .f32⟩ : BufTy).Contents (Elt F) → (⟨S2016x1, .i32⟩ : BufTy).Contents (Elt F) → (⟨S1024x2016x8, .f32⟩ : BufTy).Contents (Elt F)),
    nullary main_c_3 (constantI S_ 32 0#32),
    unary main_c_3 main_v8 (broadcastInDim S2016 ![] bcast_S_S2016 : (⟨S_, .i32⟩ : BufTy).Contents (Elt F) → (⟨S2016, .i32⟩ : BufTy).Contents (Elt F)),
    binary main_c_0 main_v8 main_v9 (cmpi .slt : (⟨S2016, .i32⟩ : BufTy).Contents (Elt F) → (⟨S2016, .i32⟩ : BufTy).Contents (Elt F) → (⟨S2016, .i1⟩ : BufTy).Contents (Elt F)),
    nullary main_c_4 (constantI S_ 32 64#32),
    unary main_c_4 main_v10 (broadcastInDim S2016 ![] bcast_S_S2016 : (⟨S_, .i32⟩ : BufTy).Contents (Elt F) → (⟨S2016, .i32⟩ : BufTy).Contents (Elt F)),
    binary main_c_0 main_v10 main_v11 (addi : (⟨S2016, .i32⟩ : BufTy).Contents (Elt F) → (⟨S2016, .i32⟩ : BufTy).Contents (Elt F) → (⟨S2016, .i32⟩ : BufTy).Contents (Elt F)),
    ternary main_v9 main_v11 main_c_0 main_v12 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v12 main_v13 (broadcastInDim S2016x1 ![0] bcast_S2016_S2016x1_0 : (⟨S2016, .i32⟩ : BufTy).Contents (Elt F) → (⟨S2016x1, .i32⟩ : BufTy).Contents (Elt F)),
    binary main_v0 main_v13 main_v14 ((fun x i => Host.gather gather_S1024x64x8_S2016x1_S1024x2016x8_02_1_n_n_1_1_102418 x i) : (⟨S1024x64x8, .f32⟩ : BufTy).Contents (Elt F) → (⟨S2016x1, .i32⟩ : BufTy).Contents (Elt F) → (⟨S1024x2016x8, .f32⟩ : BufTy).Contents (Elt F)),
    binary main_v7 main_v14 main_v15 ((fun a b => concatenate S1024x2016x16 2 [⟨S1024x2016x8, a⟩, ⟨S1024x2016x8, b⟩] concatenates_S1024x2016x8_S1024x2016x8_S1024x2016x16_d2) : (⟨S1024x2016x8, .f32⟩ : BufTy).Contents (Elt F) → (⟨S1024x2016x8, .f32⟩ : BufTy).Contents (Elt F) → (⟨S1024x2016x16, .f32⟩ : BufTy).Contents (Elt F)),
    binary main_v15 main_arg1 main_v16 ((fun l r => Host.dotGeneral dot_S1024x2016x16_S16x64_S1024x2016x64_2_0_01_1_n_n none l r) : (⟨S1024x2016x16, .f32⟩ : BufTy).Contents (Elt F) → (⟨S16x64, .f32⟩ : BufTy).Contents (Elt F) → (⟨S1024x2016x64, .f32⟩ : BufTy).Contents (Elt F)),
    unary main_arg2 main_v17 (broadcastInDim S1x1x64 ![2] bcast_S64_S1x1x64_2 : (⟨S64, .f32⟩ : BufTy).Contents (Elt F) → (⟨S1x1x64, .f32⟩ : BufTy).Contents (Elt F)),
    unary main_v17 main_v18 (broadcastInDim S1024x2016x64 ![0, 1, 2] bcast_S1x1x64_S1024x2016x64_0_1_2 : (⟨S1x1x64, .f32⟩ : BufTy).Contents (Elt F) → (⟨S1024x2016x64, .f32⟩ : BufTy).Contents (Elt F)),
    binary main_v16 main_v18 main_v19 (addf : (⟨S1024x2016x64, .f32⟩ : BufTy).Contents (Elt F) → (⟨S1024x2016x64, .f32⟩ : BufTy).Contents (Elt F) → (⟨S1024x2016x64, .f32⟩ : BufTy).Contents (Elt F)),
    TRef.nullary main_call0.cst (constant S_ .f32 0x00000000#32),
    TRef.unary main_call0.cst main_call0.v0 (broadcastInDim S1024x2016x64 ![] bcast_S_S1024x2016x64),
    TRef.binary (.of main_v19) main_call0.v0 main_call0.v1 maximumf,
    reshape main_v20 main_v21 rfl shapeCasts_S1024x2016x64_S1024x129024,
    binary main_v21 main_arg3 main_v22 ((fun l r => Host.dotGeneral dot_S1024x129024_S129024x256_S1024x256_1_0_0_1_n_n none l r) : (⟨S1024x129024, .f32⟩ : BufTy).Contents (Elt F) → (⟨S129024x256, .f32⟩ : BufTy).Contents (Elt F) → (⟨S1024x256, .f32⟩ : BufTy).Contents (Elt F)),
    unary main_arg4 main_v23 (broadcastInDim S1x256 ![1] bcast_S256_S1x256_1 : (⟨S256, .f32⟩ : BufTy).Contents (Elt F) → (⟨S1x256, .f32⟩ : BufTy).Contents (Elt F)),
    unary main_v23 main_v24 (broadcastInDim S1024x256 ![0, 1] bcast_S1x256_S1024x256_0_1 : (⟨S1x256, .f32⟩ : BufTy).Contents (Elt F) → (⟨S1024x256, .f32⟩ : BufTy).Contents (Elt F)),
    binary main_v22 main_v24 main_v25 (addf : (⟨S1024x256, .f32⟩ : BufTy).Contents (Elt F) → (⟨S1024x256, .f32⟩ : BufTy).Contents (Elt F) → (⟨S1024x256, .f32⟩ : BufTy).Contents (Elt F)),
    TRef.nullary main_call1.cst (constant S_ .f32 0x00000000#32),
    TRef.unary main_call1.cst main_call1.v0 (broadcastInDim S1024x256 ![] bcast_S_S1024x256),
    TRef.binary (.of main_v25) main_call1.v0 main_call1.v1 maximumf ]

-- the binds re-associated one statement at a time
set_option maxRecDepth 1024 in
/-- The program is that straight line: the two clamps' definitions unfolded at their calls, both sides are one
    chain of steps once sequencing is re-associated. -/
theorem main_eq (c : Dev nD) : main (F := F) c = seq ops := by
  simp only [main, fn_relu.body, fn_relu_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., reshape_bufs_sub .., binary_bufs_sub .., unary_bufs_sub .., unary_bufs_sub .., binary_bufs_sub .., nullary_bufs_sub .., unary_bufs_sub .., binary_bufs_sub ..⟩

end Program

/-! ## The run, read back -/

section Run

attribute [local irreducible] Host.gather concatenate in
set_option maxRecDepth 8192 in
/-- After the operations the result buffer holds the reference's term of the five arguments' contents: the fold
    unrolled, each operation either writes the buffer read or leaves it, and at these literal buffers the typed
    references' transports are the identity. The gathers and the concatenation stay folded (and the literal tables
    stand under a binder): the equation never looks inside them. -/
theorem out_eq (V : Valuation τ sig (Elt Ideal)) :
    after (ops (F := Ideal)) V (main_v26 : DevRef τ sig)
      = RefValue.refTerm (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

/-- No operation writes an argument's buffer: each keeps its contents. -/
theorem arg0_eq (V : Valuation τ sig (Elt Ideal)) :
    after (ops (F := Ideal)) V (main_arg0 : DevRef τ sig) = V (main_arg0 : DevRef τ sig) := by
  simp only [after_cons, after_nil]
  rfl
theorem arg1_eq (V : Valuation τ sig (Elt Ideal)) :
    after (ops (F := Ideal)) V (main_arg1 : DevRef τ sig) = V (main_arg1 : DevRef τ sig) := by
  simp only [after_cons, after_nil]
  rfl
theorem arg2_eq (V : Valuation τ sig (Elt Ideal)) :
    after (ops (F := Ideal)) V (main_arg2 : DevRef τ sig) = V (main_arg2 : DevRef τ sig) := by
  simp only [after_cons, after_nil]
  rfl
theorem arg3_eq (V : Valuation τ sig (Elt Ideal)) :
    after (ops (F := Ideal)) V (main_arg3 : DevRef τ sig) = V (main_arg3 : DevRef τ sig) := by
  simp only [after_cons, after_nil]
  rfl
theorem arg4_eq (V : Valuation τ sig (Elt Ideal)) :
    after (ops (F := Ideal)) V (main_arg4 : DevRef τ sig) = V (main_arg4 : DevRef τ sig) := by
  simp only [after_cons, after_nil]
  rfl

/-- On the device, at the ideal values, from any memory with zero counters: every weakly fair execution of the
    reference terminates with the result buffer at the relation encoder of the pair features built from the
    context array and of the four parameter arrays, and the five arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) = Cert.PairEnc.encode (RefValue.pairs (m ((c.tc : Thread nD τ).loc main_arg0))) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c =>
      ⟨((h c main_v26).trans (out_eq _)).trans (RefValue.refTerm_eq _ _ _ _ _),
        (h c main_arg0).trans (arg0_eq _), (h c main_arg1).trans (arg1_eq _), (h c main_arg2).trans (arg2_eq _),
        (h c main_arg3).trans (arg3_eq _), (h c main_arg4).trans (arg4_eq _)⟩)
    (run_seq scopedRefs_eq scopedSems_eq (defs (F := Ideal)) (main (F := Ideal)) (fun _ => ops) main_eq (fun _ => ops_sub) m ρ)

end Run

end Cert.ReferenceIdeal.RefRun

end
-- ==== Proof.lean ====
/-
  A fused relation encoder against its plain reference, over the extended reals.

  Both programs take a context array [1024, 512] (64 entities of 8 features per row), a first layer (weights
  [16, 64], bias [64]) and a second layer (weights [129024, 256], bias [256]). For every row and every one of the
  2016 unordered entity pairs the two entities' features are put side by side (16 numbers), the first layer and a
  clamp at zero give 64 hidden units per pair, a row's 2016 · 64 hidden units are laid out flat, and the second
  layer and the same clamp give the 256 results of the row.

  The reference computes this with two whole contractions. The kernel walks a grid of 4 batch tiles by 18 relation
  tiles: at each point it recomputes the hidden units of 256 rows and 112 pairs, multiplies them with the matching
  7168 rows of the second weight matrix and adds the product onto a running total that the first relation tile
  resets to zero; after the last relation tile it adds the bias, clamps, and writes the 256 rows back. It also
  passes the context and both weight matrices through a narrower float format, which over the extended reals is
  the identity.

  So both results are the one function `Cert.PairEnc.encode` (Spec.lean, SpecArr.lean) of the same pair array and
  the same four parameter arrays: the kernel's by folding the eighteen partial sums (KValue.lean: addition of
  extended reals is associative and commutative with neutral element zero, and no other law is used, so the
  precondition is never opened), the reference's by reading its term entry by entry (RefValue.lean). The frames of
  the two kernel programs are the generated ones; the reference's frame is its run with the result dropped; the
  idealization rewrote nothing, so `preserves` has nothing to show.
-/
import proofs.«118430_j27127013441944_1_alg».proof.Defs
import proofs.«118430_j27127013441944_1_alg».proof.Proof.Gen.Kernel
import proofs.«118430_j27127013441944_1_alg».proof.Proof.Gen.Kernel.Frame
import proofs.«118430_j27127013441944_1_alg».proof.Proof.Gen.KernelIdeal
import proofs.«118430_j27127013441944_1_alg».proof.Proof.Gen.KernelIdeal.Frame
import proofs.«118430_j27127013441944_1_alg».proof.Proof.Gen.ReferenceIdeal
import proofs.«118430_j27127013441944_1_alg».proof.Proof.Gen.Pre_finite_inputs
import proofs.«118430_j27127013441944_1_alg».proof.Proof.HostGlue
import proofs.«118430_j27127013441944_1_alg».proof.Proof.RefRun
import Idealize.ShloMosaic.Adequacy
import Idealize.ShloMosaic.Init

noncomputable section

namespace Cert.Proof

open Idealize.ShloMosaic Idealize.SL.Sem

/-- The word-level kernel runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- From memories that agree on the five arguments both programs end with the encoder's result array: the kernel's
    run names it over its own arguments, the reference's over its own, and the arguments agree. -/
theorem algebraic : Cert.algebraic_KernelIdeal_ReferenceIdeal := by
  intro m ρ m' ρ' _ hagree
  refine ⟨fun c => Cert.KernelIdeal.KValue.outArr m c, Cert.KernelIdeal.KValue.run m ρ, ?_⟩
  refine (θ_run Cert.ReferenceIdeal.defs _ _).mono (fun _ h c => ⟨(h c).1.trans ?_, (h c).2⟩)
    (Cert.ReferenceIdeal.RefRun.run m' ρ')
  show _ = Cert.KernelIdeal.KValue.outArr m c
  rw [Cert.KernelIdeal.HostGlue.outArr_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
